-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S512 .f32) (main_arg10 : FVec F S128x256 .f32) (main_arg11 : FVec F S128 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x256 .f32) (main_arg7 : FVec F S128 .f32) (main_arg8 : FVec F S512x128 .f32) (main_arg9 : FVec F S512 .f32) (main_arg10 : FVec F S128x256 .f32) (main_arg11 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg8
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S50000x128 .f32) (main_arg2 : IVec S2x800000 32) (main_arg3 : IVec S2x800000 32) (main_arg4 : FVec F S512x128 .f32) (main_arg5 : FVec F S512 .f32) (main_arg6 : FVec F S128x256 .f32) (main_arg7 : FVec F S128 .f32) (main_arg8 : FVec F S512x128 .f32) (main_arg9 : FVec F S512 .f32) (main_arg10 : FVec F S128x256 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x256 : Shape := ⟨2, ![128, 256]⟩
abbrev S128 : Shape := ⟨1, ![128]⟩
abbrev S2000x128 : Shape := ⟨2, ![2000, 128]⟩
abbrev S128x512 : Shape := ⟨2, ![128, 512]⟩
abbrev S2000x512 : Shape := ⟨2, ![2000, 512]⟩
abbrev S1x512 : Shape := ⟨2, ![1, 512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 57
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S512x128, .f32⟩
  | .hbm, ⟨5, _⟩ => ⟨S512, .f32⟩
  | .hbm, ⟨6, _⟩ => ⟨S128x256, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S128x256, .f32⟩
  | .hbm, ⟨11, _⟩ => ⟨S128, .f32⟩
  | .hbm, ⟨12, _⟩ => ⟨S50000x128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S128x128, .f32⟩
  | .hbm, ⟨31, _⟩ => ⟨S128x128, .f32⟩
  | .hbm, ⟨32, _⟩ => ⟨S50000x128, .f32⟩
  | .hbm, ⟨33, _⟩ => ⟨S50000x128, .f32⟩
  | .hbm, ⟨34, _⟩ => ⟨S1x800000, .i32⟩
  | .hbm, ⟨35, _⟩ => ⟨S800000, .i32⟩
  | .hbm, ⟨36, _⟩ => ⟨S1x800000, .i32⟩
  | .hbm, ⟨37, _⟩ => ⟨S800000, .i32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S128x128, .f32⟩
  | .hbm, ⟨52, _⟩ => ⟨S128x128, .f32⟩
  | .hbm, ⟨53, _⟩ => ⟨S50000x128, .f32⟩
  | .hbm, ⟨54, _⟩ => ⟨S1x50000x128, .f32⟩
  | .hbm, ⟨55, _⟩ => ⟨S1x50000x128, .f32⟩
  | .hbm, ⟨56, _⟩ => ⟨S2x50000x128, .f32⟩
  | .local _ .vmem, ⟨0, _⟩ => ⟨S2000x128, .f32⟩
  | .local _ .vmem, ⟨1, _⟩ => ⟨S2000x128, .f32⟩
  | .local _ .vmem, ⟨2, _⟩ => ⟨S512x128, .f32⟩
  | .local _ .vmem, ⟨3, _⟩ => ⟨S512, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S512x128, .f32⟩
  | .local _ .vmem, ⟨18, _⟩ => ⟨S512, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x256 : Shape := ⟨2, ![128, 256]⟩
abbrev S128 : Shape := ⟨1, ![128]⟩
abbrev S128x512 : Shape := ⟨2, ![128, 512]⟩
abbrev S50000x512 : Shape := ⟨2, ![50000, 512]⟩
abbrev S1x512 : Shape := ⟨2, ![1, 512]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x256 : Shape := ⟨2, ![50000, 256]⟩
abbrev S256x128 : Shape := ⟨2, ![256, 128]⟩
abbrev S1x128 : Shape := ⟨2, ![1, 128]⟩
abbrev S1x50000x128 : Shape := ⟨3, ![1, 50000, 128]⟩
abbrev S2x50000x128 : Shape := ⟨3, ![2, 50000, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S2x800000, .i32⟩
  | .hbm, ⟨4, _⟩ => ⟨S512x128, .f32⟩
  | .hbm, ⟨5, _⟩ => ⟨S512, .f32⟩
  | .hbm, ⟨6, _⟩ => ⟨S128x256, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S128x256, .f32⟩
  | .hbm, ⟨11, _⟩ => ⟨S128, .f32⟩
  | .hbm, ⟨12, _⟩ => ⟨S128x512, .f32⟩
  | .hbm, ⟨13, _⟩ => ⟨S50000x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x800000, .i32⟩
  | .hbm, ⟨42, _⟩ => ⟨S800000, .i32⟩
  | .hbm, ⟨43, _⟩ => ⟨S1x800000, .i32⟩
  | .hbm, ⟨44, _⟩ => ⟨S800000, .i32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000x256, .f32⟩
  | .hbm, ⟨59, _⟩ => ⟨S256x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S128x512, .f32⟩
  | .hbm, ⟨68, _⟩ => ⟨S50000x512, .f32⟩
  | .hbm, ⟨69, _⟩ => ⟨S1x512, .f32⟩
  | .hbm, ⟨70, _⟩ => ⟨S50000x512, .f32⟩
  | .hbm, ⟨71, _⟩ => ⟨S50000x512, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x800000, .i32⟩
  | .hbm, ⟨97, _⟩ => ⟨S800000, .i32⟩
  | .hbm, ⟨98, _⟩ => ⟨S1x800000, .i32⟩
  | .hbm, ⟨99, _⟩ => ⟨S800000, .i32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000x256, .f32⟩
  | .hbm, ⟨114, _⟩ => ⟨S256x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S1x50000x128, .f32⟩
  | .hbm, ⟨123, _⟩ => ⟨S1x50000x128, .f32⟩
  | .hbm, ⟨124, _⟩ => ⟨S2x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_9 : Ref sig .tc := ⟨.hbm, 100, rfl⟩
abbrev main_v75 : Ref sig .tc := ⟨.hbm, 101, rfl⟩
abbrev main_v76 : Ref sig .tc := ⟨.hbm, 102, rfl⟩
abbrev main_c_10 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call1_cst : Ref sig .tc := ⟨.hbm, 119, rfl⟩
abbrev main_call1_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  dot_S50000x128_S128x512_S50000x512_1_0_0_1_n_n_wf : DotDims.WF S50000x128 S128x512 S50000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelFold.lean ====
/-
  What each boundary of the kernel program's @main holds, read back to the launch memory.

  @main is: message launch, host operations (gather the messages along the first relation's edges, add them into
  their destinations, cut the first update layer's weights into column halves), update launch, the second message
  launch, the same host operations for the second relation, the second update launch, and the stacking of the two
  results. Each launch's arrays are what its write-backs leave; every other buffer passes through a launch unchanged;
  a host operation changes its own result buffer only. So the result buffer is the stack of the two update launches'
  outputs, each update launch is entered with the aggregated messages of the message launch before it, and every
  argument is still what the program was launched with.

  The gather-and-add chain is carried as ONE function `agg` of the messages and the edge list: the reference runs the
  same operations, and nothing here or there looks inside.
-/
import proofs.«179530_j790273982767_1_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

/-! ## The host operations as functions -/

/-- The sources' row of the edge list, as a vector of 800000 node numbers. -/
def srcs (E : (⟨S2x800000, .i32⟩ : BufTy).Contents (Elt F)) : (⟨S800000, .i32⟩ : BufTy).Contents (Elt F) :=
  shapeCast _ (extractStridedSlice S1x800000 ![0, 0] E slices_S2x800000_S1x800000_0_0) shapeCasts_S1x800000_S800000

/-- The destinations' row of the edge list. -/
def dsts (E : (⟨S2x800000, .i32⟩ : BufTy).Contents (Elt F)) : (⟨S800000, .i32⟩ : BufTy).Contents (Elt F) :=
  shapeCast _ (extractStridedSlice S1x800000 ![1, 0] E slices_S2x800000_S1x800000_1_0) shapeCasts_S1x800000_S800000

/-- Aggregation: per edge the source's message row (a negative node number counted from the end), added into the
    edge's destination row of a zero array. -/
def agg (M : (⟨S50000x128, .f32⟩ : BufTy).Contents (Elt F)) (E : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dsts E))
    (Host.gather gather_S50000x128_S800000x1_S800000x128_1_0_n_n_0_1_1128 M
      (broadcastInDim S800000x1 ![0] bcast_S800000_S800000x1_0
        (select (cmpi .slt (srcs E) (broadcastInDim S800000 ![] bcast_S_S800000 (constantI S_ 32 0#32)))
          (addi (srcs E) (broadcastInDim S800000 ![] bcast_S_S800000 (constantI S_ 32 50000#32)))
          (srcs E))))

/-- The first 128 columns of an update layer's weights. -/
def leftHalf (Wl : (⟨S128x256, .f32⟩ : BufTy).Contents (Elt F)) : (⟨S128x128, .f32⟩ : BufTy).Contents (Elt F) :=
  extractStridedSlice S128x128 ![0, 0] Wl slices_S128x256_S128x128_0_0

/-- The last 128 columns. -/
def rightHalf (Wl : (⟨S128x256, .f32⟩ : BufTy).Contents (Elt F)) : (⟨S128x128, .f32⟩ : BufTy).Contents (Elt F) :=
  extractStridedSlice S128x128 ![0, 128] Wl slices_S128x256_S128x128_0_128

/-- The two node types' results stacked along a new leading axis. -/
def stack (a b : (⟨S50000x128, .f32⟩ : BufTy).Contents (Elt F)) : (⟨S2x50000x128, .f32⟩ : BufTy).Contents (Elt F) :=
  concatenate S2x50000x128 0
    [⟨S1x50000x128, broadcastInDim S1x50000x128 ![1, 2] bcast_S50000x128_S1x50000x128_1_2 a⟩,
     ⟨S1x50000x128, broadcastInDim S1x50000x128 ![1, 2] bcast_S50000x128_S1x50000x128_1_2 b⟩]
    concatenates_S1x50000x128_S1x50000x128_S2x50000x128_d0

variable (m : (ℓ : Loc nD τ sig) → Buf (Elt F) ℓ) (ρ : Dev nD → PrngReg)

/-- No operation of a host stretch writes the buffer: each operation's result buffer is another one. -/
local macro "not_written" : tactic => `(tactic| (
  refine List.forall_iff_forall_mem.mp ?_
  simp only [hostOps1, hostOps3, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first message launch (boundary 1) -/

theorem at1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem at1_arg1 (c : Dev nD) : W1 m ρ c (Proc.devRef .tc main_arg1) = m ((c : Thread nD τ).loc main_arg1) :=
  W1_of_ne m ρ c main_arg1 (by decide)
theorem at1_arg2 (c : Dev nD) : W1 m ρ c (Proc.devRef .tc main_arg2) = m ((c : Thread nD τ).loc main_arg2) :=
  W1_of_ne m ρ c main_arg2 (by decide)
theorem at1_arg3 (c : Dev nD) : W1 m ρ c (Proc.devRef .tc main_arg3) = m ((c : Thread nD τ).loc main_arg3) :=
  W1_of_ne m ρ c main_arg3 (by decide)
theorem at1_arg6 (c : Dev nD) : W1 m ρ c (Proc.devRef .tc main_arg6) = m ((c : Thread nD τ).loc main_arg6) :=
  W1_of_ne m ρ c main_arg6 (by decide)
theorem at1_arg7 (c : Dev nD) : W1 m ρ c (Proc.devRef .tc main_arg7) = m ((c : Thread nD τ).loc main_arg7) :=
  W1_of_ne m ρ c main_arg7 (by decide)
theorem at1_arg8 (c : Dev nD) : W1 m ρ c (Proc.devRef .tc main_arg8) = m ((c : Thread nD τ).loc main_arg8) :=
  W1_of_ne m ρ c main_arg8 (by decide)
theorem at1_arg9 (c : Dev nD) : W1 m ρ c (Proc.devRef .tc main_arg9) = m ((c : Thread nD τ).loc main_arg9) :=
  W1_of_ne m ρ c main_arg9 (by decide)
theorem at1_arg10 (c : Dev nD) : W1 m ρ c (Proc.devRef .tc main_arg10) = m ((c : Thread nD τ).loc main_arg10) :=
  W1_of_ne m ρ c main_arg10 (by decide)
theorem at1_arg11 (c : Dev nD) : W1 m ρ c (Proc.devRef .tc main_arg11) = m ((c : Thread nD τ).loc main_arg11) :=
  W1_of_ne m ρ c main_arg11 (by decide)
/-- The first message launch's output array. -/
theorem at1_msg (c : Dev nD) : W1 m ρ c (Proc.devRef .tc main_v0) = (dat0 (V0 m ρ) c).arrAt 3 cfg0.N := W1_arr m ρ c 3

/-! ## Where the first update launch is entered (boundary 2) -/

theorem at2_arg0 (c : Dev nD) : W2 m ρ c (Proc.devRef .tc main_arg0) = m ((c : Thread nD τ).loc main_arg0) :=
  (StableHlo.after_of_forall_not_mem (b := Proc.devRef .tc main_arg0) _ _ (by not_written)).trans (at1_arg0 m ρ c)
theorem at2_arg1 (c : Dev nD) : W2 m ρ c (Proc.devRef .tc main_arg1) = m ((c : Thread nD τ).loc main_arg1) :=
  (StableHlo.after_of_forall_not_mem (b := Proc.devRef .tc main_arg1) _ _ (by not_written)).trans (at1_arg1 m ρ c)
theorem at2_arg3 (c : Dev nD) : W2 m ρ c (Proc.devRef .tc main_arg3) = m ((c : Thread nD τ).loc main_arg3) :=
  (StableHlo.after_of_forall_not_mem (b := Proc.devRef .tc main_arg3) _ _ (by not_written)).trans (at1_arg3 m ρ c)
theorem at2_arg7 (c : Dev nD) : W2 m ρ c (Proc.devRef .tc main_arg7) = m ((c : Thread nD τ).loc main_arg7) :=
  (StableHlo.after_of_forall_not_mem (b := Proc.devRef .tc main_arg7) _ _ (by not_written)).trans (at1_arg7 m ρ c)
theorem at2_arg8 (c : Dev nD) : W2 m ρ c (Proc.devRef .tc main_arg8) = m ((c : Thread nD τ).loc main_arg8) :=
  (StableHlo.after_of_forall_not_mem (b := Proc.devRef .tc main_arg8) _ _ (by not_written)).trans (at1_arg8 m ρ c)
theorem at2_arg9 (c : Dev nD) : W2 m ρ c (Proc.devRef .tc main_arg9) = m ((c : Thread nD τ).loc main_arg9) :=
  (StableHlo.after_of_forall_not_mem (b := Proc.devRef .tc main_arg9) _ _ (by not_written)).trans (at1_arg9 m ρ c)
theorem at2_arg10 (c : Dev nD) : W2 m ρ c (Proc.devRef .tc main_arg10) = m ((c : Thread nD τ).loc main_arg10) :=
  (StableHlo.after_of_forall_not_mem (b := Proc.devRef .tc main_arg10) _ _ (by not_written)).trans (at1_arg10 m ρ c)
theorem at2_arg11 (c : Dev nD) : W2 m ρ c (Proc.devRef .tc main_arg11) = m ((c : Thread nD τ).loc main_arg11) :=
  (StableHlo.after_of_forall_not_mem (b := Proc.devRef .tc main_arg11) _ _ (by not_written)).trans (at1_arg11 m ρ c)

set_option maxHeartbeats 4000000 in
/-- The first update launch is entered with the first relation's aggregated messages. -/
theorem at2_agg (c : Dev nD) : W2 m ρ c (Proc.devRef .tc main_v14)
    = agg ((dat0 (V0 m ρ) c).arrAt 3 cfg0.N) (m ((c : Thread nD τ).loc main_arg2)) := by
  rw [← at1_msg m ρ c, ← at1_arg2 m ρ c]
  show StableHlo.after hostOps1 (W1 m ρ c) (Proc.devRef .tc main_v14) = _
  after_results
  rfl
theorem at2_left (c : Dev nD) : W2 m ρ c (Proc.devRef .tc main_v15) = leftHalf (m ((c : Thread nD τ).loc main_arg6)) := by
  rw [← at1_arg6 m ρ c]
  show StableHlo.after hostOps1 (W1 m ρ c) (Proc.devRef .tc main_v15) = _
  after_results
  rfl
theorem at2_right (c : Dev nD) : W2 m ρ c (Proc.devRef .tc main_v16) = rightHalf (m ((c : Thread nD τ).loc main_arg6)) := by
  rw [← at1_arg6 m ρ c]
  show StableHlo.after hostOps1 (W1 m ρ c) (Proc.devRef .tc main_v16) = _
  after_results
  rfl

/-! ## After the first update launch, where the second message launch is entered (boundary 3) -/

theorem at3_arg0 (c : Dev nD) : W3 m ρ c (Proc.devRef .tc main_arg0) = m ((c : Thread nD τ).loc main_arg0) :=
  (W3_of_ne m ρ c main_arg0 (by decide)).trans (at2_arg0 m ρ c)
theorem at3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (at2_arg1 m ρ c)
theorem at3_arg3 (c : Dev nD) : W3 m ρ c (Proc.devRef .tc main_arg3) = m ((c : Thread nD τ).loc main_arg3) :=
  (W3_of_ne m ρ c main_arg3 (by decide)).trans (at2_arg3 m ρ c)
theorem at3_arg8 (c : Dev nD) : W3 m ρ c (Proc.devRef .tc main_arg8) = m ((c : Thread nD τ).loc main_arg8) :=
  (W3_of_ne m ρ c main_arg8 (by decide)).trans (at2_arg8 m ρ c)
theorem at3_arg9 (c : Dev nD) : W3 m ρ c (Proc.devRef .tc main_arg9) = m ((c : Thread nD τ).loc main_arg9) :=
  (W3_of_ne m ρ c main_arg9 (by decide)).trans (at2_arg9 m ρ c)
theorem at3_arg10 (c : Dev nD) : W3 m ρ c (Proc.devRef .tc main_arg10) = m ((c : Thread nD τ).loc main_arg10) :=
  (W3_of_ne m ρ c main_arg10 (by decide)).trans (at2_arg10 m ρ c)
theorem at3_arg11 (c : Dev nD) : W3 m ρ c (Proc.devRef .tc main_arg11) = m ((c : Thread nD τ).loc main_arg11) :=
  (W3_of_ne m ρ c main_arg11 (by decide)).trans (at2_arg11 m ρ c)
/-- The first update launch's output array. -/
theorem at3_upd (c : Dev nD) : W3 m ρ c (Proc.devRef .tc main_v17) = (dat1 (V2 m ρ) c).arrAt 5 cfg1.N := W3_arr m ρ c 5

/-! ## After the second message launch (boundary 4) -/

theorem at4_arg0 (c : Dev nD) : W4 m ρ c (Proc.devRef .tc main_arg0) = m ((c : Thread nD τ).loc main_arg0) :=
  (W4_of_ne m ρ c main_arg0 (by decide)).trans (at3_arg0 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg10 (c : Dev nD) : W4 m ρ c (Proc.devRef .tc main_arg10) = m ((c : Thread nD τ).loc main_arg10) :=
  (W4_of_ne m ρ c main_arg10 (by decide)).trans (at3_arg10 m ρ c)
theorem at4_arg11 (c : Dev nD) : W4 m ρ c (Proc.devRef .tc main_arg11) = m ((c : Thread nD τ).loc main_arg11) :=
  (W4_of_ne m ρ c main_arg11 (by decide)).trans (at3_arg11 m ρ c)
theorem at4_upd (c : Dev nD) : W4 m ρ c (Proc.devRef .tc main_v17) = (dat1 (V2 m ρ) c).arrAt 5 cfg1.N :=
  (W4_of_ne m ρ c main_v17 (by decide)).trans (at3_upd m ρ c)
/-- The second message launch's output array. -/
theorem at4_msg (c : Dev nD) : W4 m ρ c (Proc.devRef .tc main_v18) = (dat2 (V3 m ρ) c).arrAt 3 cfg2.N := W4_arr m ρ c 3

/-! ## Where the second update launch is entered (boundary 5) -/

theorem at5_arg0 (c : Dev nD) : W5 m ρ c (Proc.devRef .tc main_arg0) = m ((c : Thread nD τ).loc main_arg0) :=
  (StableHlo.after_of_forall_not_mem (b := Proc.devRef .tc main_arg0) _ _ (by not_written)).trans (at4_arg0 m ρ c)
theorem at5_arg11 (c : Dev nD) : W5 m ρ c (Proc.devRef .tc main_arg11) = m ((c : Thread nD τ).loc main_arg11) :=
  (StableHlo.after_of_forall_not_mem (b := Proc.devRef .tc main_arg11) _ _ (by not_written)).trans (at4_arg11 m ρ c)
theorem at5_upd (c : Dev nD) : W5 m ρ c (Proc.devRef .tc main_v17) = (dat1 (V2 m ρ) c).arrAt 5 cfg1.N :=
  (StableHlo.after_of_forall_not_mem (b := Proc.devRef .tc main_v17) _ _ (by not_written)).trans (at4_upd m ρ c)
set_option maxHeartbeats 4000000 in
/-- The second update launch is entered with the second relation's aggregated messages. -/
theorem at5_agg (c : Dev nD) : W5 m ρ c (Proc.devRef .tc main_v32)
    = agg ((dat2 (V3 m ρ) c).arrAt 3 cfg2.N) (m ((c : Thread nD τ).loc main_arg3)) := by
  rw [← at4_msg m ρ c, ← at4_arg3 m ρ c]
  show StableHlo.after hostOps3 (W4 m ρ c) (Proc.devRef .tc main_v32) = _
  after_results
  rfl
theorem at5_left (c : Dev nD) : W5 m ρ c (Proc.devRef .tc main_v33) = leftHalf (m ((c : Thread nD τ).loc main_arg10)) := by
  rw [← at4_arg10 m ρ c]
  show StableHlo.after hostOps3 (W4 m ρ c) (Proc.devRef .tc main_v33) = _
  after_results
  rfl
theorem at5_right (c : Dev nD) : W5 m ρ c (Proc.devRef .tc main_v34) = rightHalf (m ((c : Thread nD τ).loc main_arg10)) := by
  rw [← at4_arg10 m ρ c]
  show StableHlo.after hostOps3 (W4 m ρ c) (Proc.devRef .tc main_v34) = _
  after_results
  rfl

/-! ## The result buffer (boundary 7) -/

/-- The result is the stack of the second update launch's output over the first's. -/
theorem result_eq (c : Dev nD) : W7 m ρ c (Proc.devRef .tc main_v38)
    = stack ((dat3 (V5 m ρ) c).arrAt 5 cfg3.N) ((dat1 (V2 m ρ) c).arrAt 5 cfg1.N) := by
  have h35 : W6 m ρ c (Proc.devRef .tc main_v35) = (dat3 (V5 m ρ) c).arrAt 5 cfg3.N := W6_arr m ρ c 5
  have h17 : W6 m ρ c (Proc.devRef .tc main_v17) = (dat1 (V2 m ρ) c).arrAt 5 cfg1.N :=
    (W6_of_ne m ρ c main_v17 (by decide)).trans (at5_upd m ρ c)
  rw [← h35, ← h17]
  show StableHlo.after hostOps4 (W6 m ρ c) (Proc.devRef .tc main_v38) = _
  after_results
  rfl

end Cert.KernelIdeal.Fold

end
-- ==== Proof.Spec.lean ====
/-
  The mathematics both programs compute, index by index over the extended reals, stated once over literal shapes
  and importing neither program.

  One relation of the bipartite graph updates its destination nodes in three steps.
  * MESSAGE, per source node with feature row `x` (128 entries): four gate pre-activations per output channel `q`,
    `gate j = Σₖ x k · W j k + b j` for `j = q, 128 + q, 256 + q, 384 + q` (input, forget, cell, output gate of an LSTM
    step from the zero state; the forget gate multiplies the zero cell state and is never read), and the message is
    `σ(output) · tanh(σ(input) · tanh(cell))`.
  * AGGREGATION, by the edge list: gather the source's message per edge, add it into the edge's destination row. Both
    programs run the same host operations here, so it stays one opaque function of each side's own text.
  * UPDATE, per destination node with feature row `x` and aggregated row `a`:
    `max (Σₖ x k · Wx q k + Σₖ a k · Wa q k + b q) 0`, the ReLU of a linear layer over the concatenation `[x, a]` whose
    weight matrix is split into its two column halves `Wx`, `Wa`.
-/
import Idealize.ShloMosaic.PureOps.Ideal
import Idealize.ShloMosaic.Lib.ValueIdx

noncomputable section

namespace Cert.Gnn

open Idealize.ShloMosaic Idealize.ShloMosaic.ValueIdx

/-- Node features, and messages: 50000 nodes by 128 channels. -/
abbrev Nodes : Shape := ⟨2, ![50000, 128]⟩
/-- The four gates' weights, one row per gate channel. -/
abbrev GateW : Shape := ⟨2, ![512, 128]⟩
abbrev GateB : Shape := ⟨1, ![512]⟩
/-- One half of the update layer's weights. -/
abbrev HalfW : Shape := ⟨2, ![128, 128]⟩
abbrev OutB : Shape := ⟨1, ![128]⟩

/-- The LSTM step from the zero state on one channel: `σ(go) · tanh(σ(gi) · tanh(gg))`. -/
def cell (gi gg go : EReal) : EReal := Ideal.logistic go * Ideal.tanh (Ideal.logistic gi * Ideal.tanh gg)

/-- Gate pre-activation `j` of a node whose feature row is `x`. -/
def gate (x : Fin 128 → EReal) (W : GateW.Idx → EReal) (b : GateB.Idx → EReal) (j : Fin 512) : EReal :=
  (∑ k : Fin 128, x k * W (ix2 j k)) + b (ix1 j)

/-- Channel `q` of the message of a node with feature row `x`. -/
def msgRow (x : Fin 128 → EReal) (W : GateW.Idx → EReal) (b : GateB.Idx → EReal) (q : Fin 128) : EReal :=
  cell (gate x W b ⟨q.val, by omega⟩) (gate x W b ⟨256 + q.val, by omega⟩) (gate x W b ⟨384 + q.val, by omega⟩)

/-- Row `r` of a node array. -/
abbrev row (X : Nodes.Idx → EReal) (r : Fin 50000) : Fin 128 → EReal := fun k => X (ix2 r k)

/-- Every node's message. -/
def msg (X : Nodes.Idx → EReal) (W : GateW.Idx → EReal) (b : GateB.Idx → EReal) : Nodes.Idx → EReal :=
  fun i => msgRow (row X ⟨(i 0).val, (i 0).isLt⟩) W b ⟨(i 1).val, (i 1).isLt⟩

/-- Channel `q` of the updated feature of a node with feature row `x` and aggregated messages `a`. -/
def updRow (x a : Fin 128 → EReal) (Wx Wa : HalfW.Idx → EReal) (b : OutB.Idx → EReal) (q : Fin 128) : EReal :=
  max (((∑ k : Fin 128, x k * Wx (ix2 q k)) + ∑ k : Fin 128, a k * Wa (ix2 q k)) + b (ix1 q)) 0

/-- Every node's updated feature. -/
def upd (X A : Nodes.Idx → EReal) (Wx Wa : HalfW.Idx → EReal) (b : OutB.Idx → EReal) : Nodes.Idx → EReal :=
  fun i => updRow (row X ⟨(i 0).val, (i 0).isLt⟩) (row A ⟨(i 0).val, (i 0).isLt⟩) Wx Wa b ⟨(i 1).val, (i 1).isLt⟩

theorem msg_apply (X : Nodes.Idx → EReal) (W : GateW.Idx → EReal) (b : GateB.Idx → EReal) (r : Fin 50000) (q : Fin 128) :
    msg X W b (ix2 r q) = msgRow (row X r) W b q := rfl

theorem upd_apply (X A : Nodes.Idx → EReal) (Wx Wa : HalfW.Idx → EReal) (b : OutB.Idx → EReal) (r : Fin 50000) (q : Fin 128) :
    upd X A Wx Wa b (ix2 r q) = updRow (row X r) (row A r) Wx Wa b q := rfl

end Cert.Gnn

end
-- ==== Proof.MsgKernel.lean ====
/-
  The message kernel's stored block, read at one entry. A block holds 2000 source nodes; entry (p, q) of what the
  body stores is channel `q` of the message of the node whose features are row `p` of the loaded feature block: the
  matrix product of the block with the transposed gate weights into a zero accumulator is, at the ideal instance, the
  plain sum over the 128 features; the bias row is added to every node; the four gate groups are the four column
  ranges of 128; the narrowing of the operands to bf16 changes nothing over the extended reals.
-/
import proofs.«179530_j790273982767_1_alg».proof.Proof.Gen.KernelIdeal.Skeleton
import proofs.«179530_j790273982767_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.MsgValue

open Cert.KernelIdeal Cert.KernelIdeal.Gen
open Idealize.ShloMosaic Idealize.ShloMosaic.TcCoe Idealize.ShloMosaic.ValueIdx

/-! ## The product of the feature block with the transposed gate weights, read at an entry -/

/-- The left operand's row is the entry's row. -/
theorem lhs_gates_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- The left operand's column is the summation index. -/
theorem lhs_gates_1 (i : S2000x512.Idx) (q : dot_S2000x128_S128x512_S2000x512_1_0_0_1_n_n.contr.Idx) :
    (dot_S2000x128_S128x512_S2000x512_1_0_0_1_n_n.lhsIdx i q 1).val = (q ⟨0, by decide⟩).val :=
  dot_S2000x128_S128x512_S2000x512_1_0_0_1_n_n.lhsIdx_val_of_single rfl i q
/-- The right operand's row is the summation index. -/
theorem rhs_gates_0 (i : S2000x512.Idx) (q : dot_S2000x128_S128x512_S2000x512_1_0_0_1_n_n.contr.Idx) :
    (dot_S2000x128_S128x512_S2000x512_1_0_0_1_n_n.rhsIdx i q 0).val = (q ⟨0, by decide⟩).val :=
  dot_S2000x128_S128x512_S2000x512_1_0_0_1_n_n.rhsIdx_val_of_single rfl i q
/-- The right operand's column is the entry's column. -/
theorem rhs_gates_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Into a zero accumulator the product of a 2000 x 128 block with a 128 x 512 matrix is, at entry (p, j), the sum over
    the 128 shared indices of the products of row p of the block with column j of the matrix. -/
theorem gates_product_apply (a : FVec Ideal S2000x128 .bf16) (b : FVec Ideal S128x512 .bf16) (p : Fin 2000) (j : Fin 512) :
    matmul dot_S2000x128_S128x512_S2000x512_1_0_0_1_n_n none a b (constant (F := Ideal) S2000x512 .f32 0x00000000#32) (ix2 p j)
      = ∑ k : Fin 128, a (ix2 p k) * b (ix2 k j) := by
  simp only [matmul]
  rw [Ideal.matmul_constant_zero_apply, ← Equiv.sum_comp (ValueIdx.contrEquiv1 dot_S2000x128_S128x512_S2000x512_1_0_0_1_n_n 128 rfl rfl).symm]
  refine Finset.sum_congr rfl fun k _ => ?_
  have hk := ValueIdx.contrEquiv1_symm_val dot_S2000x128_S128x512_S2000x512_1_0_0_1_n_n 128 rfl rfl k
  have el : dot_S2000x128_S128x512_S2000x512_1_0_0_1_n_n.lhsIdx (ix2 p j) ((ValueIdx.contrEquiv1 dot_S2000x128_S128x512_S2000x512_1_0_0_1_n_n 128 rfl rfl).symm k) = ix2 p k := funext fun a => Fin.ext (by
    match a with
    | ⟨0, _⟩ => exact lhs_gates_0 _ _
    | ⟨1, _⟩ => exact (lhs_gates_1 _ _).trans hk)
  have er : dot_S2000x128_S128x512_S2000x512_1_0_0_1_n_n.rhsIdx (ix2 p j) ((ValueIdx.contrEquiv1 dot_S2000x128_S128x512_S2000x512_1_0_0_1_n_n 128 rfl rfl).symm k) = ix2 k j := funext fun a => Fin.ext (by
    match a with
    | ⟨0, _⟩ => exact (rhs_gates_0 _ _).trans hk
    | ⟨1, _⟩ => exact rhs_gates_1 _ _)
  rw [el, er]

/-! ## The gate pre-activations and the cell, read at an entry -/

/-- Entry (p, j) of the pre-activation block, the product plus the bias row laid over every node, is gate j of the node
    in row p: narrowing the operands changes nothing, and the transposed weights at (k, j) are the weights at (j, k). -/
theorem gate_apply (x0 : Vec Ideal S2000x128 .f32) (x1 : Vec Ideal S512x128 .f32) (x2 : Vec Ideal S512 .f32)
    (p : Fin 2000) (j : Fin 512) :
    addf (matmul dot_S2000x128_S128x512_S2000x512_1_0_0_1_n_n none (truncf .bf16 x0 bitsLt_bf16_f32)
        (transpose S128x512 [1, 0] (truncf .bf16 x1 bitsLt_bf16_f32) transposes_S512x128_p1_0_S128x512)
        (constant (F := Ideal) S2000x512 .f32 0x00000000#32))
      (broadcastTo S2000x512 (shapeCast S1x512 x2 shapeCasts_S512_S1x512) broadcasts_S1x512_S2000x512) (ix2 p j)
      = Cert.Gnn.gate (fun k => x0 (ix2 p k)) x1 x2 j := by
  rw [addf_apply, gates_product_apply, broadcastTo_1b_ab_apply, shapeCast_a_1a_apply]
  unfold Cert.Gnn.gate
  refine congrArg (· + x2 (ix1 j)) (Finset.sum_congr rfl fun k _ => ?_)
  rw [truncf_apply, transpose_ix2_apply, truncf_apply]

/-- The three column ranges of 128 that are read, the logistic and hyperbolic tangent, and the two products: entry (p, q)
    of the result is the cell of the pre-activations at columns q, 256 + q and 384 + q of row p. -/
theorem cell_apply (v : FVec Ideal S2000x512 .f32) (p : Fin 2000) (q : Fin 128) :
    mulf (logistic (extractStridedSlice S2000x128 ![0, 384] v slices_S2000x512_o0_384_S2000x128))
      (tanh (mulf (logistic (extractStridedSlice S2000x128 ![0, 0] v slices_S2000x512_o0_0_S2000x128))
        (tanh (extractStridedSlice S2000x128 ![0, 256] v slices_S2000x512_o0_256_S2000x128)))) (ix2 p q)
      = Cert.Gnn.cell (v (ix2 p ⟨q.val, by omega⟩)) (v (ix2 p ⟨256 + q.val, by omega⟩)) (v (ix2 p ⟨384 + q.val, by omega⟩)) := by
  show Ideal.logistic (extractStridedSlice S2000x128 ![0, 384] v slices_S2000x512_o0_384_S2000x128 (ix2 p q))
      * Ideal.tanh (Ideal.logistic (extractStridedSlice S2000x128 ![0, 0] v slices_S2000x512_o0_0_S2000x128 (ix2 p q))
        * Ideal.tanh (extractStridedSlice S2000x128 ![0, 256] v slices_S2000x512_o0_256_S2000x128 (ix2 p q))) = _
  rw [slice2_axis1_apply 384 v slices_S2000x512_o0_384_S2000x128 p q ⟨384 + q.val, by omega⟩ rfl,
    slice2_axis1_apply 0 v slices_S2000x512_o0_0_S2000x128 p q ⟨q.val, by omega⟩ (Nat.zero_add _).symm,
    slice2_axis1_apply 256 v slices_S2000x512_o0_256_S2000x128 p q ⟨256 + q.val, by omega⟩ rfl]
  rfl

/-- Entry (p, q) of the block the message kernel stores is channel `q` of the message of the node in row `p`. -/
theorem msg_payload (x0 : Vec Ideal S2000x128 .f32) (x1 : Vec Ideal S512x128 .f32) (x2 : Vec Ideal S512 .f32)
    (p : Fin 2000) (q : Fin 128) :
    k0_pay1 (F := Ideal) x0 x1 x2 (ix2 p q) = Cert.Gnn.msgRow (fun k => x0 (ix2 p k)) x1 x2 q := by
  unfold k0_pay1
  refine (cell_apply _ p q).trans ?_
  unfold Cert.Gnn.msgRow
  exact congr (congr (congrArg Cert.Gnn.cell (gate_apply x0 x1 x2 p _)) (gate_apply x0 x1 x2 p _)) (gate_apply x0 x1 x2 p _)

/-- The second message launch runs the same body. -/
theorem msg_payload' (x0 : Vec Ideal S2000x128 .f32) (x1 : Vec Ideal S512x128 .f32) (x2 : Vec Ideal S512 .f32)
    (p : Fin 2000) (q : Fin 128) :
    k2_pay1 (F := Ideal) x0 x1 x2 (ix2 p q) = Cert.Gnn.msgRow (fun k => x0 (ix2 p k)) x1 x2 q :=
  msg_payload x0 x1 x2 p q

end Cert.KernelIdeal.MsgValue

end
-- ==== Proof.MsgArray.lean ====
/-
  From blocks to the array, for the first message launch. The grid has 25 points; point `t` reads rows
  `2000·t … 2000·t + 1999` of the source features, the whole gate weights and the whole bias, and writes back rows
  `2000·t … 2000·t + 1999` of the messages. The 25 row ranges tile the 50000 rows, so after the launch the message
  array holds every node's message.
-/
import proofs.«179530_j790273982767_1_alg».proof.Proof.Gen.KernelIdeal.Frame
import proofs.«179530_j790273982767_1_alg».proof.Proof.MsgKernel

set_option maxRecDepth 16384

noncomputable section

namespace Cert.KernelIdeal.MsgValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The body loads and stores its whole staging buffers: the offsets of its rectangles are zero on both axes, -/
theorem block_offsets2 : (![0, 0] : Fin 2 → Nat) = fun _ => 0 := funext fun a => by fin_cases a <;> rfl
/-- and on the bias vector's one axis. -/
theorem block_offsets1 : (![0] : Fin 1 → Nat) = fun _ => 0 := funext fun a => by fin_cases a <;> rfl

/-! ## The first message launch -/

/-- Where the windows sit at point `t` (decided over the 25 points): the source features' and the messages' block is
    row block `t`, column block 0; the gate weights and the bias are block 0 throughout. -/
theorem rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the feature block at point `t` is row `2000·t + p` of the source features. -/
theorem src_block0 (c : Dev nD) (t : Fin cfg0.N) (p : Fin 2000) (k : Fin 128) (i : S50000x128.Idx)
    (hi0 : (i 0).val = t.val * 2000 + p.val) (hi1 : (i 1).val = k.val) :
    iblk0 V c 0 t (ix2 p k) = V c main_arg0 i := by
  obtain ⟨e0, e1, -⟩ := rows0 t
  show V c main_arg0 (((cfg0.win 0).blk t).view.emb (ix2 p k)) = V c main_arg0 i
  refine congrArg _ ?_
  funext a; apply Fin.ext
  match a with
  | ⟨0, _⟩ => show win0_0.index t (0 : Fin 2) * 2000 + 1 * p.val = (i 0).val; omega
  | ⟨1, _⟩ => show win0_0.index t (1 : Fin 2) * 128 + 1 * k.val = (i 1).val; omega

/-- The gate weights' block at every point is the whole weight array. -/
theorem weight_block0 (c : Dev nD) (t : Fin cfg0.N) : (iblk0 V c 1 t : Vec Ideal S512x128 .f32) = V c main_arg4 := by
  obtain ⟨-, -, e2, e3, -⟩ := rows0 t
  funext y
  show V c main_arg4 (((cfg0.win 1).blk t).view.emb y) = V c main_arg4 y
  refine congrArg _ ?_
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- The bias's block at every point is the whole bias. -/
theorem bias_block0 (c : Dev nD) (t : Fin cfg0.N) : (iblk0 V c 2 t : Vec Ideal S512 .f32) = V c main_arg5 := by
  obtain ⟨-, -, -, -, e4, -⟩ := rows0 t
  funext y
  show V c main_arg5 (((cfg0.win 2).blk t).view.emb y) = V c main_arg5 y
  refine congrArg _ ?_
  funext a; apply Fin.ext
  match a with
  | ⟨0, _⟩ => show win0_2.index t (0 : Fin 1) * 512 + 1 * (y 0).val = (y 0).val; omega

/-- What point `t` writes back is rows `2000·t … 2000·t + 1999` of the messages of all nodes: entry (p, q) of the
    stored block is channel `q` of the message of the node in row `p` of the feature block, which is node
    `2000·t + p`. -/
theorem flushed0 (c : Dev nD) (t : Fin cfg0.N) :
    (dat0 (F := Ideal) V c).flushed 3 t
      = ((cfg0.win 3).blk t).view.read (Elt Ideal) (Cert.Gnn.msg (V c main_arg0) (V c main_arg4) (V c main_arg5)) := by
  show (cfg0.win 3).cut (grid0.coords t) ((dat0 V c).after 3 t) = _
  rw [after0_3]
  unfold out0_3
  rw [View.canon_unit_zero block_offsets2]
  simp only [View.ld_unit_zero (S := S2000x128) block_offsets2, View.ld_unit_zero (S := S512x128) block_offsets2,
    View.ld_unit_zero (S := S512) block_offsets1]
  funext j
  obtain ⟨p, q, rfl⟩ : ∃ (p : Fin 2000) (q : Fin 128), j = ix2 p q := ⟨j 0, j 1, eq_ix2 j⟩
  obtain ⟨-, -, -, -, -, e5, e6⟩ := rows0 t
  have ht : t.val < 25 := t.isLt
  show k0_pay1 (iblk0 V c 0 t) (iblk0 V c 1 t) (iblk0 V c 2 t) (ix2 p q)
    = Cert.Gnn.msg (V c main_arg0) (V c main_arg4) (V c main_arg5) (((cfg0.win 3).blk t).view.emb (ix2 p q))
  have hi : ((cfg0.win 3).blk t).view.emb (ix2 p q)
      = (ix2 (⟨t.val * 2000 + p.val, by omega⟩ : Fin 50000) q : S50000x128.Idx) := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  rw [hi, Cert.Gnn.msg_apply, msg_payload, weight_block0, bias_block0]
  refine congrArg (fun x => Cert.Gnn.msgRow x (V c main_arg4) (V c main_arg5) q) ?_
  funext k
  exact src_block0 V c t p k _ rfl rfl

/-- A node-and-channel index is in point `t`'s block of the messages iff each coordinate is in the block's range. -/
theorem mem_block0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v0).slice (win0_3.rect t)).set ↔ _
  rw [View.set_slice_whole, Rect.mem_set_unit]
  exact Iff.rfl

/-- The 25 row ranges tile the 50000 rows: node `r` is written back at point `r / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 2000 < 25 := by omega
  obtain ⟨-, -, -, -, -, e5, e6⟩ := rows0 ⟨(i 0).val / 2000, ht⟩
  have e5' : win0_3.index ⟨(i 0).val / 2000, ht⟩ (0 : Fin 2) = (i 0).val / 2000 := e5
  refine ⟨⟨(i 0).val / 2000, ht⟩, flush0_3 _, ?_⟩
  rw [mem_block0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    omega

/-- After the first message launch its output array holds the messages of the nodes of `main_arg0` under the gate
    weights `main_arg4` and bias `main_arg5`, read where the launch is entered. -/
theorem msg_array0 (c : Dev nD) :
    (dat0 (F := Ideal) V c).arrAt 3 cfg0.N = Cert.Gnn.msg (V c main_arg0) (V c main_arg4) (V c main_arg5) :=
  (dat0 V c).arrAt_eq_of_cover 3 _ (fun t _ => flushed0 V c t) cover0

end Cert.KernelIdeal.MsgValue

end
-- ==== Proof.MsgArray2.lean ====
/-
  From blocks to the array, for the second message launch: the same 25 row blocks of 2000 nodes, now over the second
  node type's features and the second relation's gate weights and bias.
-/
import proofs.«179530_j790273982767_1_alg».proof.Proof.Gen.KernelIdeal.Frame
import proofs.«179530_j790273982767_1_alg».proof.Proof.MsgArray

set_option maxRecDepth 16384

noncomputable section

namespace Cert.KernelIdeal.MsgValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The second message launch -/

/-- Where the windows sit at point `t` (decided over the 25 points): the source features' and the messages' block is
    row block `t`, column block 0; the gate weights and the bias are block 0 throughout. -/
theorem rows2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row `p` of the feature block at point `t` is row `2000·t + p` of the source features. -/
theorem src_block2 (c : Dev nD) (t : Fin cfg2.N) (p : Fin 2000) (k : Fin 128) (i : S50000x128.Idx)
    (hi0 : (i 0).val = t.val * 2000 + p.val) (hi1 : (i 1).val = k.val) :
    iblk2 V c 0 t (ix2 p k) = V c main_arg1 i := by
  obtain ⟨e0, e1, -⟩ := rows2 t
  show V c main_arg1 (((cfg2.win 0).blk t).view.emb (ix2 p k)) = V c main_arg1 i
  refine congrArg _ ?_
  funext a; apply Fin.ext
  match a with
  | ⟨0, _⟩ => show win2_0.index t (0 : Fin 2) * 2000 + 1 * p.val = (i 0).val; omega
  | ⟨1, _⟩ => show win2_0.index t (1 : Fin 2) * 128 + 1 * k.val = (i 1).val; omega

/-- The gate weights' block at every point is the whole weight array. -/
theorem weight_block2 (c : Dev nD) (t : Fin cfg2.N) : (iblk2 V c 1 t : Vec Ideal S512x128 .f32) = V c main_arg8 := by
  obtain ⟨-, -, e2, e3, -⟩ := rows2 t
  funext y
  show V c main_arg8 (((cfg2.win 1).blk t).view.emb y) = V c main_arg8 y
  refine congrArg _ ?_
  funext a; apply Fin.ext
  match a with
  | ⟨0, _⟩ => show win2_1.index t (0 : Fin 2) * 512 + 1 * (y 0).val = (y 0).val; omega
  | ⟨1, _⟩ => show win2_1.index t (1 : Fin 2) * 128 + 1 * (y 1).val = (y 1).val; omega

/-- The bias's block at every point is the whole bias. -/
theorem bias_block2 (c : Dev nD) (t : Fin cfg2.N) : (iblk2 V c 2 t : Vec Ideal S512 .f32) = V c main_arg9 := by
  obtain ⟨-, -, -, -, e4, -⟩ := rows2 t
  funext y
  show V c main_arg9 (((cfg2.win 2).blk t).view.emb y) = V c main_arg9 y
  refine congrArg _ ?_
  funext a; apply Fin.ext
  match a with
  | ⟨0, _⟩ => show win2_2.index t (0 : Fin 1) * 512 + 1 * (y 0).val = (y 0).val; omega

/-- What point `t` writes back is rows `2000·t … 2000·t + 1999` of the messages of all nodes: entry (p, q) of the
    stored block is channel `q` of the message of the node in row `p` of the feature block, which is node
    `2000·t + p`. -/
theorem flushed2 (c : Dev nD) (t : Fin cfg2.N) :
    (dat2 (F := Ideal) V c).flushed 3 t
      = ((cfg2.win 3).blk t).view.read (Elt Ideal) (Cert.Gnn.msg (V c main_arg1) (V c main_arg8) (V c main_arg9)) := by
  show (cfg2.win 3).cut (grid2.coords t) ((dat2 V c).after 3 t) = _
  rw [after2_3]
  unfold out2_3
  rw [View.canon_unit_zero block_offsets2]
  simp only [View.ld_unit_zero (S := S2000x128) block_offsets2, View.ld_unit_zero (S := S512x128) block_offsets2,
    View.ld_unit_zero (S := S512) block_offsets1]
  funext j
  obtain ⟨p, q, rfl⟩ : ∃ (p : Fin 2000) (q : Fin 128), j = ix2 p q := ⟨j 0, j 1, eq_ix2 j⟩
  obtain ⟨-, -, -, -, -, e5, e6⟩ := rows2 t
  have ht : t.val < 25 := t.isLt
  show k2_pay1 (iblk2 V c 0 t) (iblk2 V c 1 t) (iblk2 V c 2 t) (ix2 p q)
    = Cert.Gnn.msg (V c main_arg1) (V c main_arg8) (V c main_arg9) (((cfg2.win 3).blk t).view.emb (ix2 p q))
  have hi : ((cfg2.win 3).blk t).view.emb (ix2 p q)
      = (ix2 (⟨t.val * 2000 + p.val, by omega⟩ : Fin 50000) q : S50000x128.Idx) := by
    funext a; apply Fin.ext
    match a with
    | ⟨0, _⟩ => show win2_3.index t (0 : Fin 2) * 2000 + 1 * p.val = t.val * 2000 + p.val; omega
    | ⟨1, _⟩ => show win2_3.index t (1 : Fin 2) * 128 + 1 * q.val = q.val; omega
  rw [hi, Cert.Gnn.msg_apply, msg_payload', weight_block2, bias_block2]
  refine congrArg (fun x => Cert.Gnn.msgRow x (V c main_arg8) (V c main_arg9) q) ?_
  funext k
  exact src_block2 V c t p k _ rfl rfl

/-- A node-and-channel index is in point `t`'s block of the messages iff each coordinate is in the block's range. -/
theorem mem_block2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v18).slice (win2_3.rect t)).set ↔ _
  rw [View.set_slice_whole, Rect.mem_set_unit]
  exact Iff.rfl

/-- The 25 row ranges tile the 50000 rows: node `r` is written back at point `r / 2000`. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have ht : (i 0).val / 2000 < 25 := by omega
  obtain ⟨-, -, -, -, -, e5, e6⟩ := rows2 ⟨(i 0).val / 2000, ht⟩
  have e5' : win2_3.index ⟨(i 0).val / 2000, ht⟩ (0 : Fin 2) = (i 0).val / 2000 := e5
  refine ⟨⟨(i 0).val / 2000, ht⟩, flush2_3 _, ?_⟩
  rw [mem_block2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    omega
  | ⟨1, _⟩ =>
    show win2_3.index ⟨(i 0).val / 2000, ht⟩ (1 : Fin 2) * 128 ≤ (i 1).val
      ∧ (i 1).val < win2_3.index ⟨(i 0).val / 2000, ht⟩ (1 : Fin 2) * 128 + 128
    omega

/-- After the second message launch its output array holds the messages of the nodes of `main_arg1` under the gate
    weights `main_arg8` and bias `main_arg9`, read where the launch is entered. -/
theorem msg_array2 (c : Dev nD) :
    (dat2 (F := Ideal) V c).arrAt 3 cfg2.N = Cert.Gnn.msg (V c main_arg1) (V c main_arg8) (V c main_arg9) :=
  (dat2 V c).arrAt_eq_of_cover 3 _ (fun t _ => flushed2 V c t) cover2

end Cert.KernelIdeal.MsgValue

end
-- ==== Proof.UpdKernel.lean ====
/-
  The update kernel's stored block, read at one entry. Entry (p, q) is channel `q` of the updated feature of the
  node in row `p`: two matrix products into zero accumulators, the node's own features with the first half of the
  layer's weights and its aggregated messages with the second half, each a plain sum over 128 entries at the ideal
  instance; their sum plus the bias; the maximum with zero.
-/
import proofs.«179530_j790273982767_1_alg».proof.Proof.Gen.KernelIdeal.Skeleton
import proofs.«179530_j790273982767_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.UpdValue

open Cert.KernelIdeal Cert.KernelIdeal.Gen
open Idealize.ShloMosaic Idealize.ShloMosaic.TcCoe Idealize.ShloMosaic.ValueIdx

/-! ## The product of a 2000 x 128 block with a transposed half of the layer's weights, read at an entry -/

/-- The left operand's row is the entry's row. -/
theorem lhs_half_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the summation index. -/
theorem lhs_half_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the summation index. -/
theorem rhs_half_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the entry's column. -/
theorem rhs_half_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Into a zero accumulator the product of a 2000 x 128 block with a 128 x 128 matrix is, at entry (p, q), the sum over
    the 128 shared indices of the products of row p of the block with column q of the matrix. -/
theorem half_product_apply (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_half_0 _ _
    | ⟨1, _⟩ => exact (lhs_half_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_half_0 _ _).trans hk
    | ⟨1, _⟩ => exact rhs_half_1 _ _)
  rw [el, er]

/-! ## The linear layer and the maximum with zero, read at an entry -/

/-- Entry (p, q) of the layer before the maximum: the node's own features against the first half of the weights, its
    aggregated messages against the second half, and the bias row laid over every node. Narrowing the operands and
    recasting a block to its own shape change nothing, and a transposed half at (k, q) is that half at (q, k). -/
theorem linear_apply (x0 x1 : Vec Ideal S2000x128 .f32) (x2 x3 : Vec Ideal S128x128 .f32) (x4 : Vec Ideal S128 .f32)
    (p : Fin 2000) (q : Fin 128) :
    addf (addf
        (matmul dot_S2000x128_S128x128_S2000x128_1_0_0_1_n_n none (truncf .bf16 x0 bitsLt_bf16_f32)
          (transpose S128x128 [1, 0] (truncf .bf16 (shapeCast S128x128 x2 shapeCasts_S128x128_S128x128) bitsLt_bf16_f32)
            transposes_S128x128_p1_0_S128x128)
          (constant (F := Ideal) S2000x128 .f32 0x00000000#32))
        (matmul dot_S2000x128_S128x128_S2000x128_1_0_0_1_n_n none (truncf .bf16 (shapeCast S2000x128 x1 shapeCasts_S2000x128_S2000x128) bitsLt_bf16_f32)
          (transpose S128x128 [1, 0] (truncf .bf16 (shapeCast S128x128 x3 shapeCasts_S128x128_S128x128) bitsLt_bf16_f32)
            transposes_S128x128_p1_0_S128x128)
          (constant (F := Ideal) S2000x128 .f32 0x00000000#32)))
      (broadcastTo S2000x128 (shapeCast S1x128 x4 shapeCasts_S128_S1x128) broadcasts_S1x128_S2000x128) (ix2 p q)
      = ((∑ k : Fin 128, x0 (ix2 p k) * x2 (ix2 q k)) + ∑ k : Fin 128, x1 (ix2 p k) * x3 (ix2 q k)) + x4 (ix1 q) := by
  rw [addf_apply, addf_apply, half_product_apply, half_product_apply, broadcastTo_1b_ab_apply, shapeCast_a_1a_apply]
  refine congrArg (· + x4 (ix1 q)) ?_
  refine congrArg₂ (· + ·) (Finset.sum_congr rfl fun k _ => ?_) (Finset.sum_congr rfl fun k _ => ?_)
  · rw [truncf_apply, transpose_ix2_apply, truncf_apply, shapeCast_self]
  · rw [truncf_apply, shapeCast_self, transpose_ix2_apply, truncf_apply, shapeCast_self]

/-- The word the maximum is taken against is the extended real zero. -/
theorem zero_block_apply (i : S2000x128.Idx) :
    broadcast S2000x128 (Scalar.ofBits (F := Ideal) .f32 0x00000000#32) i = (0 : EReal) :=
  Ideal.ofBits_zero_f32

/-- Entry (p, q) of the block the update kernel stores is channel `q` of the updated feature of the node in row `p`. -/
theorem upd_payload (x0 x1 : Vec Ideal S2000x128 .f32) (x2 x3 : Vec Ideal S128x128 .f32) (x4 : Vec Ideal S128 .f32)
    (p : Fin 2000) (q : Fin 128) :
    k1_pay1 (F := Ideal) x0 x1 x2 x3 x4 (ix2 p q)
      = Cert.Gnn.updRow (fun k => x0 (ix2 p k)) (fun k => x1 (ix2 p k)) x2 x3 x4 q := by
  unfold k1_pay1
  refine (maximumf_apply _ _ (ix2 p q)).trans ?_
  unfold Cert.Gnn.updRow
  exact congr (congrArg max (linear_apply x0 x1 x2 x3 x4 p q)) (zero_block_apply (ix2 p q))

/-- The second update launch runs the same body. -/
theorem upd_payload' (x0 x1 : Vec Ideal S2000x128 .f32) (x2 x3 : Vec Ideal S128x128 .f32) (x4 : Vec Ideal S128 .f32)
    (p : Fin 2000) (q : Fin 128) :
    k3_pay1 (F := Ideal) x0 x1 x2 x3 x4 (ix2 p q)
      = Cert.Gnn.updRow (fun k => x0 (ix2 p k)) (fun k => x1 (ix2 p k)) x2 x3 x4 q :=
  upd_payload x0 x1 x2 x3 x4 p q

end Cert.KernelIdeal.UpdValue

end
-- ==== Proof.UpdArray.lean ====
/-
  From blocks to the array, for the first update launch. Point `t` of the 25 reads rows `2000·t … 2000·t + 1999` of
  the destination features and of the aggregated messages, both weight halves and the bias whole, and writes back the
  same rows of the result; the 25 row ranges tile the 50000 rows.
-/
import proofs.«179530_j790273982767_1_alg».proof.Proof.Gen.KernelIdeal.Frame
import proofs.«179530_j790273982767_1_alg».proof.Proof.UpdKernel

set_option maxRecDepth 16384

noncomputable section

namespace Cert.KernelIdeal.UpdValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The body loads and stores its whole staging buffers: the offsets of its rectangles are zero on both axes, -/
theorem block_offsets2 : (![0, 0] : Fin 2 → Nat) = fun _ => 0 := funext fun a => by fin_cases a <;> rfl
/-- and on the bias vector's one axis. -/
theorem block_offsets1 : (![0] : Fin 1 → Nat) = fun _ => 0 := funext fun a => by fin_cases a <;> rfl

/-! ## The first update launch -/

/-- Where the windows sit at point `t` (decided over the 25 points): the destination features', the aggregated
    messages' and the result's block is row block `t`, column block 0; the two weight halves and the bias are block 0
    throughout. -/
theorem rows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of the feature block at point `t` is row `2000·t + p` of the destination features. -/
theorem own_block1 (c : Dev nD) (t : Fin cfg1.N) (p : Fin 2000) (k : Fin 128) (i : S50000x128.Idx)
    (hi0 : (i 0).val = t.val * 2000 + p.val) (hi1 : (i 1).val = k.val) :
    iblk1 V c 0 t (ix2 p k) = V c main_arg1 i := by
  obtain ⟨e0, e1, -⟩ := rows1 t
  show V c main_arg1 (((cfg1.win 0).blk t).view.emb (ix2 p k)) = V c main_arg1 i
  refine congrArg _ ?_
  funext a; apply Fin.ext
  match a with
  | ⟨0, _⟩ => show win1_0.index t (0 : Fin 2) * 2000 + 1 * p.val = (i 0).val; omega
  | ⟨1, _⟩ => show win1_0.index t (1 : Fin 2) * 128 + 1 * k.val = (i 1).val; omega

/-- Row `p` of the aggregated block at point `t` is row `2000·t + p` of the aggregated messages. -/
theorem aggr_block1 (c : Dev nD) (t : Fin cfg1.N) (p : Fin 2000) (k : Fin 128) (i : S50000x128.Idx)
    (hi0 : (i 0).val = t.val * 2000 + p.val) (hi1 : (i 1).val = k.val) :
    iblk1 V c 1 t (ix2 p k) = V c main_v14 i := by
  obtain ⟨-, -, e2, e3, -⟩ := rows1 t
  show V c main_v14 (((cfg1.win 1).blk t).view.emb (ix2 p k)) = V c main_v14 i
  refine congrArg _ ?_
  funext a; apply Fin.ext
  match a with
  | ⟨0, _⟩ => show win1_1.index t (0 : Fin 2) * 2000 + 1 * p.val = (i 0).val; omega
  | ⟨1, _⟩ => show win1_1.index t (1 : Fin 2) * 128 + 1 * k.val = (i 1).val; omega

/-- The block of the weights' first half at every point is that whole half. -/
theorem wx_block1 (c : Dev nD) (t : Fin cfg1.N) : (iblk1 V c 2 t : Vec Ideal S128x128 .f32) = V c main_v15 := by
  obtain ⟨-, -, -, -, e4, e5, -⟩ := rows1 t
  funext y
  show V c main_v15 (((cfg1.win 2).blk t).view.emb y) = V c main_v15 y
  refine congrArg _ ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The block of the weights' second half at every point is that whole half. -/
theorem wa_block1 (c : Dev nD) (t : Fin cfg1.N) : (iblk1 V c 3 t : Vec Ideal S128x128 .f32) = V c main_v16 := by
  obtain ⟨-, -, -, -, -, -, e6, e7, -⟩ := rows1 t
  funext y
  show V c main_v16 (((cfg1.win 3).blk t).view.emb y) = V c main_v16 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias's block at every point is the whole bias. -/
theorem bias_block1 (c : Dev nD) (t : Fin cfg1.N) : (iblk1 V c 4 t : Vec Ideal S128 .f32) = V c main_arg7 := by
  obtain ⟨-, -, -, -, -, -, -, -, e8, -⟩ := rows1 t
  funext y
  show V c main_arg7 (((cfg1.win 4).blk t).view.emb y) = V c main_arg7 y
  refine congrArg _ ?_
  funext a; apply Fin.ext
  match a with
  | ⟨0, _⟩ => show win1_4.index t (0 : Fin 1) * 128 + 1 * (y 0).val = (y 0).val; omega

/-- What point `t` writes back is rows `2000·t … 2000·t + 1999` of the updated features of all nodes: entry (p, q)
    of the stored block is channel `q` of the update of the node in row `p` of both loaded blocks, which is node
    `2000·t + p`. -/
theorem flushed1 (c : Dev nD) (t : Fin cfg1.N) :
    (dat1 (F := Ideal) V c).flushed 5 t
      = ((cfg1.win 5).blk t).view.read (Elt Ideal)
          (Cert.Gnn.upd (V c main_arg1) (V c main_v14) (V c main_v15) (V c main_v16) (V c main_arg7)) := by
  show (cfg1.win 5).cut (grid1.coords t) ((dat1 V c).after 5 t) = _
  rw [after1_5]
  unfold out1_5
  rw [View.canon_unit_zero block_offsets2]
  simp only [View.ld_unit_zero (S := S2000x128) block_offsets2, View.ld_unit_zero (S := S128x128) block_offsets2,
    View.ld_unit_zero (S := S128) block_offsets1]
  funext j
  obtain ⟨p, q, rfl⟩ : ∃ (p : Fin 2000) (q : Fin 128), j = ix2 p q := ⟨j 0, j 1, eq_ix2 j⟩
  obtain ⟨-, -, -, -, -, -, -, -, -, e9, e10⟩ := rows1 t
  have ht : t.val < 25 := t.isLt
  show k1_pay1 (iblk1 V c 0 t) (iblk1 V c 1 t) (iblk1 V c 2 t) (iblk1 V c 3 t) (iblk1 V c 4 t) (ix2 p q)
    = Cert.Gnn.upd (V c main_arg1) (V c main_v14) (V c main_v15) (V c main_v16) (V c main_arg7)
        (((cfg1.win 5).blk t).view.emb (ix2 p q))
  have hi : ((cfg1.win 5).blk t).view.emb (ix2 p q)
      = (ix2 (⟨t.val * 2000 + p.val, by omega⟩ : Fin 50000) q : S50000x128.Idx) := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [hi, Cert.Gnn.upd_apply, upd_payload, wx_block1, wa_block1, bias_block1]
  refine congrArg₂ (fun x a => Cert.Gnn.updRow x a (V c main_v15) (V c main_v16) (V c main_arg7) q) ?_ ?_
  · funext k
    exact own_block1 V c t p k _ rfl rfl
  · funext k
    exact aggr_block1 V c t p k _ rfl rfl

/-- A node-and-channel index is in point `t`'s block of the result iff each coordinate is in the block's range. -/
theorem mem_block1 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v17).slice (win1_5.rect t)).set ↔ _
  rw [View.set_slice_whole, Rect.mem_set_unit]
  exact Iff.rfl

/-- The 25 row ranges tile the 50000 rows: node `r` is written back at point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < 25 := by omega
  obtain ⟨-, -, -, -, -, -, -, -, -, e9, e10⟩ := rows1 ⟨(i 0).val / 2000, ht⟩
  have e9' : win1_5.index ⟨(i 0).val / 2000, ht⟩ (0 : Fin 2) = (i 0).val / 2000 := e9
  refine ⟨⟨(i 0).val / 2000, ht⟩, flush1_5 _, ?_⟩
  rw [mem_block1]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    omega
  | ⟨1, _⟩ =>
    show win1_5.index ⟨(i 0).val / 2000, ht⟩ (1 : Fin 2) * 128 ≤ (i 1).val
      ∧ (i 1).val < win1_5.index ⟨(i 0).val / 2000, ht⟩ (1 : Fin 2) * 128 + 128
    omega

/-- After the first update launch its output array holds the updated features of the nodes of `main_arg1`, their
    aggregated messages `main_v14`, the weight halves `main_v15`, `main_v16` and the bias `main_arg7`, read where the
    launch is entered. -/
theorem upd_array1 (c : Dev nD) :
    (dat1 (F := Ideal) V c).arrAt 5 cfg1.N
      = Cert.Gnn.upd (V c main_arg1) (V c main_v14) (V c main_v15) (V c main_v16) (V c main_arg7) :=
  (dat1 V c).arrAt_eq_of_cover 5 _ (fun t _ => flushed1 V c t) cover1

end Cert.KernelIdeal.UpdValue

end
-- ==== Proof.UpdArray2.lean ====
/-
  From blocks to the array, for the second update launch: the same 25 row blocks of 2000 nodes, now over the first
  node type's features, the second relation's aggregated messages and the first node type's layer.
-/
import proofs.«179530_j790273982767_1_alg».proof.Proof.Gen.KernelIdeal.Frame
import proofs.«179530_j790273982767_1_alg».proof.Proof.UpdArray

set_option maxRecDepth 16384

noncomputable section

namespace Cert.KernelIdeal.UpdValue

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The second update launch -/

/-- Where the windows sit at point `t` (decided over the 25 points): the destination features', the aggregated
    messages' and the result's block is row block `t`, column block 0; the two weight halves and the bias are block 0
    throughout. -/
theorem rows3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Row `p` of the feature block at point `t` is row `2000·t + p` of the destination features. -/
theorem own_block3 (c : Dev nD) (t : Fin cfg3.N) (p : Fin 2000) (k : Fin 128) (i : S50000x128.Idx)
    (hi0 : (i 0).val = t.val * 2000 + p.val) (hi1 : (i 1).val = k.val) :
    iblk3 V c 0 t (ix2 p k) = V c main_arg0 i := by
  obtain ⟨e0, e1, -⟩ := rows3 t
  show V c main_arg0 (((cfg3.win 0).blk t).view.emb (ix2 p k)) = V c main_arg0 i
  refine congrArg _ ?_
  funext a; apply Fin.ext
  match a with
  | ⟨0, _⟩ => show win3_0.index t (0 : Fin 2) * 2000 + 1 * p.val = (i 0).val; omega
  | ⟨1, _⟩ => show win3_0.index t (1 : Fin 2) * 128 + 1 * k.val = (i 1).val; omega

/-- Row `p` of the aggregated block at point `t` is row `2000·t + p` of the aggregated messages. -/
theorem aggr_block3 (c : Dev nD) (t : Fin cfg3.N) (p : Fin 2000) (k : Fin 128) (i : S50000x128.Idx)
    (hi0 : (i 0).val = t.val * 2000 + p.val) (hi1 : (i 1).val = k.val) :
    iblk3 V c 1 t (ix2 p k) = V c main_v32 i := by
  obtain ⟨-, -, e2, e3, -⟩ := rows3 t
  show V c main_v32 (((cfg3.win 1).blk t).view.emb (ix2 p k)) = V c main_v32 i
  refine congrArg _ ?_
  funext a; apply Fin.ext
  match a with
  | ⟨0, _⟩ => show win3_1.index t (0 : Fin 2) * 2000 + 1 * p.val = (i 0).val; omega
  | ⟨1, _⟩ => show win3_1.index t (1 : Fin 2) * 128 + 1 * k.val = (i 1).val; omega

/-- The block of the weights' first half at every point is that whole half. -/
theorem wx_block3 (c : Dev nD) (t : Fin cfg3.N) : (iblk3 V c 2 t : Vec Ideal S128x128 .f32) = V c main_v33 := by
  obtain ⟨-, -, -, -, e4, e5, -⟩ := rows3 t
  funext y
  show V c main_v33 (((cfg3.win 2).blk t).view.emb y) = V c main_v33 y
  refine congrArg _ ?_
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The block of the weights' second half at every point is that whole half. -/
theorem wa_block3 (c : Dev nD) (t : Fin cfg3.N) : (iblk3 V c 3 t : Vec Ideal S128x128 .f32) = V c main_v34 := by
  obtain ⟨-, -, -, -, -, -, e6, e7, -⟩ := rows3 t
  funext y
  show V c main_v34 (((cfg3.win 3).blk t).view.emb y) = V c main_v34 y
  refine congrArg _ ?_
  funext a; apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- The bias's block at every point is the whole bias. -/
theorem bias_block3 (c : Dev nD) (t : Fin cfg3.N) : (iblk3 V c 4 t : Vec Ideal S128 .f32) = V c main_arg11 := by
  obtain ⟨-, -, -, -, -, -, -, -, e8, -⟩ := rows3 t
  funext y
  show V c main_arg11 (((cfg3.win 4).blk t).view.emb y) = V c main_arg11 y
  refine congrArg _ ?_
  funext a; apply Fin.ext
  match a with
  | ⟨0, _⟩ => show win3_4.index t (0 : Fin 1) * 128 + 1 * (y 0).val = (y 0).val; omega

/-- What point `t` writes back is rows `2000·t … 2000·t + 1999` of the updated features of all nodes: entry (p, q)
    of the stored block is channel `q` of the update of the node in row `p` of both loaded blocks, which is node
    `2000·t + p`. -/
theorem flushed3 (c : Dev nD) (t : Fin cfg3.N) :
    (dat3 (F := Ideal) V c).flushed 5 t
      = ((cfg3.win 5).blk t).view.read (Elt Ideal)
          (Cert.Gnn.upd (V c main_arg0) (V c main_v32) (V c main_v33) (V c main_v34) (V c main_arg11)) := by
  show (cfg3.win 5).cut (grid3.coords t) ((dat3 V c).after 5 t) = _
  rw [after3_5]
  unfold out3_5
  rw [View.canon_unit_zero block_offsets2]
  simp only [View.ld_unit_zero (S := S2000x128) block_offsets2, View.ld_unit_zero (S := S128x128) block_offsets2,
    View.ld_unit_zero (S := S128) block_offsets1]
  funext j
  obtain ⟨p, q, rfl⟩ : ∃ (p : Fin 2000) (q : Fin 128), j = ix2 p q := ⟨j 0, j 1, eq_ix2 j⟩
  obtain ⟨-, -, -, -, -, -, -, -, -, e9, e10⟩ := rows3 t
  have ht : t.val < 25 := t.isLt
  show k3_pay1 (iblk3 V c 0 t) (iblk3 V c 1 t) (iblk3 V c 2 t) (iblk3 V c 3 t) (iblk3 V c 4 t) (ix2 p q)
    = Cert.Gnn.upd (V c main_arg0) (V c main_v32) (V c main_v33) (V c main_v34) (V c main_arg11)
        (((cfg3.win 5).blk t).view.emb (ix2 p q))
  have hi : ((cfg3.win 5).blk t).view.emb (ix2 p q)
      = (ix2 (⟨t.val * 2000 + p.val, by omega⟩ : Fin 50000) q : S50000x128.Idx) := by
    funext a; apply Fin.ext
    match a with
    | ⟨0, _⟩ => show win3_5.index t (0 : Fin 2) * 2000 + 1 * p.val = t.val * 2000 + p.val; omega
    | ⟨1, _⟩ => show win3_5.index t (1 : Fin 2) * 128 + 1 * q.val = q.val; omega
  rw [hi, Cert.Gnn.upd_apply, upd_payload', wx_block3, wa_block3, bias_block3]
  refine congrArg₂ (fun x a => Cert.Gnn.updRow x a (V c main_v33) (V c main_v34) (V c main_arg11) q) ?_ ?_
  · funext k
    exact own_block3 V c t p k _ rfl rfl
  · funext k
    exact aggr_block3 V c t p k _ rfl rfl

/-- A node-and-channel index is in point `t`'s block of the result iff each coordinate is in the block's range. -/
theorem mem_block3 (t : Fin cfg3.N) (i : S50000x128.Idx) :
    i ∈ ((cfg3.win 5).blk t).view.set ↔ ∀ a : Fin 2, win3_5.index t a * S2000x128.size a ≤ (i a).val
      ∧ (i a).val < win3_5.index t a * S2000x128.size a + S2000x128.size a := by
  show i ∈ ((View.whole main_v35).slice (win3_5.rect t)).set ↔ _
  rw [View.set_slice_whole, Rect.mem_set_unit]
  exact Iff.rfl

/-- The 25 row ranges tile the 50000 rows: node `r` is written back at point `r / 2000`. -/
theorem cover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have ht : (i 0).val / 2000 < 25 := by omega
  obtain ⟨-, -, -, -, -, -, -, -, -, e9, e10⟩ := rows3 ⟨(i 0).val / 2000, ht⟩
  have e9' : win3_5.index ⟨(i 0).val / 2000, ht⟩ (0 : Fin 2) = (i 0).val / 2000 := e9
  refine ⟨⟨(i 0).val / 2000, ht⟩, flush3_5 _, ?_⟩
  rw [mem_block3]
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    omega
  | ⟨1, _⟩ =>
    show win3_5.index ⟨(i 0).val / 2000, ht⟩ (1 : Fin 2) * 128 ≤ (i 1).val
      ∧ (i 1).val < win3_5.index ⟨(i 0).val / 2000, ht⟩ (1 : Fin 2) * 128 + 128
    omega

/-- After the second update launch its output array holds the updated features of the nodes of `main_arg0`, their
    aggregated messages `main_v32`, the weight halves `main_v33`, `main_v34` and the bias `main_arg11`, read where the
    launch is entered. -/
theorem upd_array3 (c : Dev nD) :
    (dat3 (F := Ideal) V c).arrAt 5 cfg3.N
      = Cert.Gnn.upd (V c main_arg0) (V c main_v32) (V c main_v33) (V c main_v34) (V c main_arg11) :=
  (dat3 V c).arrAt_eq_of_cover 5 _ (fun t _ => flushed3 V c t) cover3

end Cert.KernelIdeal.UpdValue

end
-- ==== Proof.KernelValue.lean ====
/-
  The kernel program's result as one formula over the specification. The result buffer is the stack of the two update
  launches' outputs; each update launch's output is the specification's `upd` of what the launch is entered with: the
  node type's own features as launched, the aggregation of the message launch's output before it — the
  specification's `msg` of the other node type's features as launched —, the two column halves of the layer's weights
  and its bias.
-/
import proofs.«179530_j790273982767_1_alg».proof.Proof.KernelFold
import proofs.«179530_j790273982767_1_alg».proof.Proof.MsgArray
import proofs.«179530_j790273982767_1_alg».proof.Proof.MsgArray2
import proofs.«179530_j790273982767_1_alg».proof.Proof.UpdArray
import proofs.«179530_j790273982767_1_alg».proof.Proof.UpdArray2

set_option maxRecDepth 16384

noncomputable section

namespace Cert.KernelIdeal.KernelValue

open Cert.KernelIdeal Cert.KernelIdeal.Gen Cert.KernelIdeal.Fold
open Idealize.ShloMosaic Idealize.ShloMosaic.TcCoe Idealize.SL.Sem

variable (m : (ℓ : Loc nD τ sig) → Buf (Elt Ideal) ℓ) (ρ : Dev nD → PrngReg)

/-- The first message launch's output: the messages of the first node type's features. -/
theorem msg_ab (c : Dev nD) : (dat0 (F := Ideal) (V0 m ρ) c).arrAt 3 cfg0.N
    = Cert.Gnn.msg (m ((c : Thread nD τ).loc main_arg0)) (m ((c : Thread nD τ).loc main_arg4)) (m ((c : Thread nD τ).loc main_arg5)) :=
  Cert.KernelIdeal.MsgValue.msg_array0 (V0 m ρ) c

/-- The second message launch's output: the messages of the second node type's features. -/
theorem msg_ba (c : Dev nD) : (dat2 (F := Ideal) (V3 m ρ) c).arrAt 3 cfg2.N
    = Cert.Gnn.msg (m ((c : Thread nD τ).loc main_arg1)) (m ((c : Thread nD τ).loc main_arg8)) (m ((c : Thread nD τ).loc main_arg9)) := by
  rw [Cert.KernelIdeal.MsgValue.msg_array2 (V3 m ρ) c]
  show Cert.Gnn.msg (W3 m ρ c (Proc.devRef .tc main_arg1)) (W3 m ρ c (Proc.devRef .tc main_arg8)) (W3 m ρ c (Proc.devRef .tc main_arg9)) = _
  rw [at3_arg1 m ρ c, at3_arg8 m ρ c, at3_arg9 m ρ c]

/-- The first update launch's output: the second node type's updated features. -/
theorem upd_b (c : Dev nD) : (dat1 (F := Ideal) (V2 m ρ) c).arrAt 5 cfg1.N
    = Cert.Gnn.upd (m ((c : Thread nD τ).loc main_arg1))
        (agg (Cert.Gnn.msg (m ((c : Thread nD τ).loc main_arg0)) (m ((c : Thread nD τ).loc main_arg4)) (m ((c : Thread nD τ).loc main_arg5)))
          (m ((c : Thread nD τ).loc main_arg2)))
        (leftHalf (m ((c : Thread nD τ).loc main_arg6))) (rightHalf (m ((c : Thread nD τ).loc main_arg6)))
        (m ((c : Thread nD τ).loc main_arg7)) := by
  rw [Cert.KernelIdeal.UpdValue.upd_array1 (V2 m ρ) c]
  show Cert.Gnn.upd (W2 m ρ c (Proc.devRef .tc main_arg1)) (W2 m ρ c (Proc.devRef .tc main_v14)) (W2 m ρ c (Proc.devRef .tc main_v15))
    (W2 m ρ c (Proc.devRef .tc main_v16)) (W2 m ρ c (Proc.devRef .tc main_arg7)) = _
  rw [at2_arg1 m ρ c, at2_agg m ρ c, at2_left m ρ c, at2_right m ρ c, at2_arg7 m ρ c, msg_ab m ρ c]

/-- The second update launch's output: the first node type's updated features. -/
theorem upd_a (c : Dev nD) : (dat3 (F := Ideal) (V5 m ρ) c).arrAt 5 cfg3.N
    = Cert.Gnn.upd (m ((c : Thread nD τ).loc main_arg0))
        (agg (Cert.Gnn.msg (m ((c : Thread nD τ).loc main_arg1)) (m ((c : Thread nD τ).loc main_arg8)) (m ((c : Thread nD τ).loc main_arg9)))
          (m ((c : Thread nD τ).loc main_arg3)))
        (leftHalf (m ((c : Thread nD τ).loc main_arg10))) (rightHalf (m ((c : Thread nD τ).loc main_arg10)))
        (m ((c : Thread nD τ).loc main_arg11)) := by
  rw [Cert.KernelIdeal.UpdValue.upd_array3 (V5 m ρ) c]
  show Cert.Gnn.upd (W5 m ρ c (Proc.devRef .tc main_arg0)) (W5 m ρ c (Proc.devRef .tc main_v32)) (W5 m ρ c (Proc.devRef .tc main_v33))
    (W5 m ρ c (Proc.devRef .tc main_v34)) (W5 m ρ c (Proc.devRef .tc main_arg11)) = _
  rw [at5_arg0 m ρ c, at5_agg m ρ c, at5_left m ρ c, at5_right m ρ c, at5_arg11 m ρ c, msg_ba m ρ c]

/-- THE KERNEL PROGRAM'S RESULT. -/
theorem result (c : Dev nD) : W7 m ρ c (Proc.devRef .tc main_v38)
    = stack
        (Cert.Gnn.upd (m ((c : Thread nD τ).loc main_arg0))
          (agg (Cert.Gnn.msg (m ((c : Thread nD τ).loc main_arg1)) (m ((c : Thread nD τ).loc main_arg8)) (m ((c : Thread nD τ).loc main_arg9)))
            (m ((c : Thread nD τ).loc main_arg3)))
          (leftHalf (m ((c : Thread nD τ).loc main_arg10))) (rightHalf (m ((c : Thread nD τ).loc main_arg10)))
          (m ((c : Thread nD τ).loc main_arg11)))
        (Cert.Gnn.upd (m ((c : Thread nD τ).loc main_arg1))
          (agg (Cert.Gnn.msg (m ((c : Thread nD τ).loc main_arg0)) (m ((c : Thread nD τ).loc main_arg4)) (m ((c : Thread nD τ).loc main_arg5)))
            (m ((c : Thread nD τ).loc main_arg2)))
          (leftHalf (m ((c : Thread nD τ).loc main_arg6))) (rightHalf (m ((c : Thread nD τ).loc main_arg6)))
          (m ((c : Thread nD τ).loc main_arg7))) := by
  rw [result_eq m ρ c, upd_a m ρ c, upd_b m ρ c]

end Cert.KernelIdeal.KernelValue

end
-- ==== Proof.MsgRef.lean ====
/-
  The reference's message stage is the specification's `msg`. The reference computes the four gate groups for all
  50000 nodes at once: one product of the features with the transposed gate weights (at the ideal instance the sum
  over the 128 features), the bias broadcast over the nodes, four column slices, and the logistic function spelt out as
  `1 / (1 + exp (-x))`, which is the ideal instance's very definition of it.
-/
import proofs.«179530_j790273982767_1_alg».proof.Proof.RefRead
import proofs.«179530_j790273982767_1_alg».proof.Proof.Spec

set_option maxRecDepth 16384

noncomputable section

namespace Cert.ReferenceIdeal.MsgValue

open Cert.ReferenceIdeal Cert.ReferenceIdeal.Gen Cert.ReferenceIdeal.ReadP
open Idealize.ShloMosaic Idealize.ShloMosaic.TcCoe Idealize.ShloMosaic.ValueIdx

/-- The word `0x3F800000` is the float `1.0`: sign 0, biased exponent 127, mantissa 0. -/
theorem ofBits_one : Ideal.ofBits .f32 0x3F800000#32 = 1 := by
  simp [Ideal.ofBits, Ideal.ieee, -EReal.coe_mul]; norm_num

/-- Entry `(r, j)` of the reference's gate pre-activations (the product with the transposed weights plus the
    broadcast bias) is the specification's gate `j` of node `r`'s feature row. -/
theorem gates_apply (x0 : (⟨S50000x128, .f32⟩ : BufTy).Contents (Elt Ideal)) (x4 : (⟨S512x128, .f32⟩ : BufTy).Contents (Elt Ideal))
    (x5 : (⟨S512, .f32⟩ : BufTy).Contents (Elt Ideal)) (r : Fin 50000) (j : Fin 512) :
    val_main_v4 (F := Ideal) x0 x4 x5 (ix2 r j) = Cert.Gnn.gate (Cert.Gnn.row x0 r) x4 x5 j := by
  have e1 : ∀ k : Fin 128, lidx_main_v1 (ix2 r j) k = ix2 r k := fun k =>
    funext fun a => Fin.ext (by match a with | ⟨0, _⟩ => rfl | ⟨1, _⟩ => rfl)
  have e2 : ∀ k : Fin 128, idx_main_v0 (ridx_main_v1 (ix2 r j) k) = ix2 j k := fun k =>
    funext fun a => Fin.ext (by match a with | ⟨0, _⟩ => rfl | ⟨1, _⟩ => rfl)
  have e3 : idx_main_v2 (idx_main_v3 (ix2 r j)) = ix1 j :=
    funext fun a => Fin.ext (by match a with | ⟨0, _⟩ => rfl)
  rw [val_main_v4_apply, val_main_v1_apply, val_main_v3_apply, val_main_v2_apply, e3]
  simp only [val_main_v0_apply, e1, e2, Ideal.addf_def]
  rfl

/-- The reference's messages along the first relation (sources `x0`, gate weights `x4`, bias `x5`). -/
theorem msg_ref_ab (x0 : (⟨S50000x128, .f32⟩ : BufTy).Contents (Elt Ideal)) (x4 : (⟨S512x128, .f32⟩ : BufTy).Contents (Elt Ideal))
    (x5 : (⟨S512, .f32⟩ : BufTy).Contents (Elt Ideal)) :
    val_main_v24 (F := Ideal) x0 x4 x5 = Cert.Gnn.msg x0 x4 x5 := by
  funext i
  obtain ⟨r, q, rfl⟩ : ∃ (r : Fin 50000) (q : Fin 128), i = ix2 r q := ⟨i 0, i 1, eq_ix2 i⟩
  have e5 : idx_main_v5 (ix2 r q) = ix2 r (⟨q.val, by omega⟩ : Fin 512) :=
    funext fun a => Fin.ext (by match a with | ⟨0, _⟩ => rfl | ⟨1, _⟩ => rfl)
  have e7 : idx_main_v7 (ix2 r q) = ix2 r (⟨256 + q.val, by omega⟩ : Fin 512) :=
    funext fun a => Fin.ext (by match a with | ⟨0, _⟩ => rfl | ⟨1, _⟩ => rfl)
  have e8 : idx_main_v8 (ix2 r q) = ix2 r (⟨384 + q.val, by omega⟩ : Fin 512) :=
    funext fun a => Fin.ext (by match a with | ⟨0, _⟩ => rfl | ⟨1, _⟩ => rfl)
  rw [Cert.Gnn.msg_apply, val_main_v24_apply, val_main_v22_apply, val_main_v21_apply, val_main_cst_2_apply,
    val_main_v20_apply, val_main_v19_apply, val_main_cst_1_apply, val_main_v18_apply, val_main_v17_apply,
    val_main_v8_apply, val_main_v23_apply, val_main_v16_apply, val_main_v14_apply, val_main_v13_apply,
    val_main_cst_0_apply, val_main_v12_apply, val_main_v11_apply, val_main_cst_apply, val_main_v10_apply,
    val_main_v9_apply, val_main_v5_apply, val_main_v15_apply, val_main_v7_apply, e5, e7, e8,
    gates_apply, gates_apply, gates_apply]
  simp only [Ideal.ofBits_def, ofBits_one]
  rfl

/-- The reference's messages along the second relation (sources `x1`, gate weights `x8`, bias `x9`). -/
theorem msg_ref_ba (x1 : (⟨S50000x128, .f32⟩ : BufTy).Contents (Elt Ideal)) (x8 : (⟨S512x128, .f32⟩ : BufTy).Contents (Elt Ideal))
    (x9 : (⟨S512, .f32⟩ : BufTy).Contents (Elt Ideal)) :
    val_main_v70 (F := Ideal) x1 x8 x9 = Cert.Gnn.msg x1 x8 x9 :=
  msg_ref_ab x1 x8 x9

end Cert.ReferenceIdeal.MsgValue

end
-- ==== Proof.UpdRef.lean ====
/-
  The reference's update stage is the specification's `upd`. The reference concatenates each node's features with
  its aggregated messages into a row of 256 and multiplies by the transposed layer weights: at the ideal instance a sum
  over 256 entries, which splits into the sum over the first 128 (the node's own features against the first half of
  the weights' columns) plus the sum over the last 128 (the aggregated messages against the second half) — addition of
  extended reals is commutative and associative, so the split needs no finiteness. Then the bias and the maximum with
  zero. The aggregated messages enter as whatever array they are: nothing here reads the gather or the scatter.
-/
import proofs.«179530_j790273982767_1_alg».proof.Proof.RefRead
import proofs.«179530_j790273982767_1_alg».proof.Proof.Spec

set_option maxRecDepth 16384

noncomputable section

namespace Cert.ReferenceIdeal.UpdValue

open Cert.ReferenceIdeal Cert.ReferenceIdeal.Gen Cert.ReferenceIdeal.ReadP
open Idealize.ShloMosaic Idealize.ShloMosaic.TcCoe Idealize.ShloMosaic.ValueIdx

/-- A sum over 256 entries is the sum over the first 128 plus the sum over the last 128. -/
theorem sum_256_split (f : Fin 256 → EReal) :
    ∑ k : Fin 256, f k
      = (∑ k : Fin 128, f (⟨k.val, by omega⟩ : Fin 256)) + ∑ k : Fin 128, f (⟨128 + k.val, by omega⟩ : Fin 256) :=
  Fin.sum_univ_add (a := 128) (b := 128) f

/-- Column `k < 128` of the concatenation along the columns is column `k` of the first piece. -/
theorem cat_left (X A : (⟨S50000x128, .f32⟩ : BufTy).Contents (Elt Ideal)) (r : Fin 50000) (k : Fin 128) :
    concatenate S50000x256 1 [⟨S50000x128, X⟩, ⟨S50000x128, A⟩] concatenates_S50000x128_S50000x128_S50000x256_d1
        (ix2 r (⟨k.val, by omega⟩ : Fin 256)) = X (ix2 r k) :=
  concatenate_pair_apply_left 1 X A concatenates_S50000x128_S50000x128_S50000x256_d1 _ rfl (ix2 r k)
    (fun b => by match b with | ⟨0, _⟩ => rfl | ⟨1, _⟩ => rfl)

/-- Column `128 + k` of the concatenation along the columns is column `k` of the second piece. -/
theorem cat_right (X A : (⟨S50000x128, .f32⟩ : BufTy).Contents (Elt Ideal)) (r : Fin 50000) (k : Fin 128) :
    concatenate S50000x256 1 [⟨S50000x128, X⟩, ⟨S50000x128, A⟩] concatenates_S50000x128_S50000x128_S50000x256_d1
        (ix2 r (⟨128 + k.val, by omega⟩ : Fin 256)) = A (ix2 r k) :=
  concatenate_pair_apply_right 1 X A concatenates_S50000x128_S50000x128_S50000x256_d1 _ rfl rfl (ix2 r k)
    (fun b hb => by match b with | ⟨0, _⟩ => rfl | ⟨1, _⟩ => exact absurd rfl hb)
    (by show k.val + 128 = 128 + k.val; omega)

/-- One entry of the linear layer over a concatenated row: the sum over the 256 joined entries against row `q` of
    the weights is the first piece's row against the first half of the weights' columns plus the second piece's row
    against the second half, then the bias and the maximum with zero. -/
theorem layer_apply (X A : (⟨S50000x128, .f32⟩ : BufTy).Contents (Elt Ideal))
    (W : (⟨S128x256, .f32⟩ : BufTy).Contents (Elt Ideal)) (b : (⟨S128, .f32⟩ : BufTy).Contents (Elt Ideal))
    (Wx Wa : Cert.Gnn.HalfW.Idx → EReal)
    (hx : ∀ j k : Fin 128, Wx (ix2 j k) = W (ix2 j (⟨k.val, by omega⟩ : Fin 256)))
    (ha : ∀ j k : Fin 128, Wa (ix2 j k) = W (ix2 j (⟨128 + k.val, by omega⟩ : Fin 256)))
    (r : Fin 50000) (q : Fin 128) :
    max ((∑ k : Fin 256,
          concatenate S50000x256 1 [⟨S50000x128, X⟩, ⟨S50000x128, A⟩] concatenates_S50000x128_S50000x128_S50000x256_d1 (ix2 r k)
            * W (ix2 q k)) + b (ix1 q)) 0
      = Cert.Gnn.updRow (Cert.Gnn.row X r) (Cert.Gnn.row A r) Wx Wa b q := by
  have h1 : ∀ k : Fin 128,
      concatenate S50000x256 1 [⟨S50000x128, X⟩, ⟨S50000x128, A⟩] concatenates_S50000x128_S50000x128_S50000x256_d1
          (ix2 r (⟨k.val, by omega⟩ : Fin 256)) * W (ix2 q (⟨k.val, by omega⟩ : Fin 256))
        = Cert.Gnn.row X r k * Wx (ix2 q k) := fun k => by rw [cat_left, hx]
  have h2 : ∀ k : Fin 128,
      concatenate S50000x256 1 [⟨S50000x128, X⟩, ⟨S50000x128, A⟩] concatenates_S50000x128_S50000x128_S50000x256_d1
          (ix2 r (⟨128 + k.val, by omega⟩ : Fin 256)) * W (ix2 q (⟨128 + k.val, by omega⟩ : Fin 256))
        = Cert.Gnn.row A r k * Wa (ix2 q k) := fun k => by rw [cat_right, ha]
  rw [sum_256_split, Finset.sum_congr rfl (fun k _ => h1 k), Finset.sum_congr rfl (fun k _ => h2 k)]
  rfl

/-- The reference's update of the second node type: destination features `x1`, layer weights `x6` with column halves
    `Wx`, `Wa`, bias `x7`; the aggregated messages are the reference's own scatter result. -/
theorem upd_ref_b (x0 x1 : (⟨S50000x128, .f32⟩ : BufTy).Contents (Elt Ideal)) (x2 : (⟨S2x800000, .i32⟩ : BufTy).Contents (Elt Ideal))
    (x4 : (⟨S512x128, .f32⟩ : BufTy).Contents (Elt Ideal)) (x5 : (⟨S512, .f32⟩ : BufTy).Contents (Elt Ideal))
    (x6 : (⟨S128x256, .f32⟩ : BufTy).Contents (Elt Ideal)) (x7 : (⟨S128, .f32⟩ : BufTy).Contents (Elt Ideal))
    (Wx Wa : Cert.Gnn.HalfW.Idx → EReal)
    (hx : ∀ j k : Fin 128, Wx (ix2 j k) = x6 (ix2 j (⟨k.val, by omega⟩ : Fin 256)))
    (ha : ∀ j k : Fin 128, Wa (ix2 j k) = x6 (ix2 j (⟨128 + k.val, by omega⟩ : Fin 256))) :
    val_main_v45 (F := Ideal) x0 x1 x2 x4 x5 x6 x7
      = Cert.Gnn.upd x1 (val_main_v38 (F := Ideal) x0 x2 x4 x5) Wx Wa x7 := by
  funext i
  obtain ⟨r, q, rfl⟩ : ∃ (r : Fin 50000) (q : Fin 128), i = ix2 r q := ⟨i 0, i 1, eq_ix2 i⟩
  have el : ∀ k : Fin 256, lidx_main_v41 (ix2 r q) k = ix2 r k := fun k =>
    funext fun a => Fin.ext (by match a with | ⟨0, _⟩ => rfl | ⟨1, _⟩ => rfl)
  have er : ∀ k : Fin 256, idx_main_v40 (ridx_main_v41 (ix2 r q) k) = ix2 q k := fun k =>
    funext fun a => Fin.ext (by match a with | ⟨0, _⟩ => rfl | ⟨1, _⟩ => rfl)
  have eb : idx_main_v42 (idx_main_v43 (ix2 r q)) = ix1 q :=
    funext fun a => Fin.ext (by match a with | ⟨0, _⟩ => rfl)
  rw [Cert.Gnn.upd_apply, val_main_v45_apply, val_main_call0_v0_apply, val_main_call0_cst_apply, val_main_v44_apply,
    val_main_v41_apply, val_main_v43_apply, val_main_v42_apply, eb]
  unfold val_main_v39
  generalize val_main_v38 (F := Ideal) x0 x2 x4 x5 = A
  simp only [val_main_v40_apply, el, er, Ideal.addf_def, Ideal.maximumf_def, Ideal.ofBits_def, Ideal.ofBits_zero_f32]
  exact layer_apply x1 A x6 x7 Wx Wa hx ha r q

/-- The reference's update of the first node type: destination features `x0`, layer weights `x10`, bias `x11`. -/
theorem upd_ref_a (x0 x1 : (⟨S50000x128, .f32⟩ : BufTy).Contents (Elt Ideal)) (x3 : (⟨S2x800000, .i32⟩ : BufTy).Contents (Elt Ideal))
    (x8 : (⟨S512x128, .f32⟩ : BufTy).Contents (Elt Ideal)) (x9 : (⟨S512, .f32⟩ : BufTy).Contents (Elt Ideal))
    (x10 : (⟨S128x256, .f32⟩ : BufTy).Contents (Elt Ideal)) (x11 : (⟨S128, .f32⟩ : BufTy).Contents (Elt Ideal))
    (Wx Wa : Cert.Gnn.HalfW.Idx → EReal)
    (hx : ∀ j k : Fin 128, Wx (ix2 j k) = x10 (ix2 j (⟨k.val, by omega⟩ : Fin 256)))
    (ha : ∀ j k : Fin 128, Wa (ix2 j k) = x10 (ix2 j (⟨128 + k.val, by omega⟩ : Fin 256))) :
    val_main_v91 (F := Ideal) x0 x1 x3 x8 x9 x10 x11
      = Cert.Gnn.upd x0 (val_main_v84 (F := Ideal) x1 x3 x8 x9) Wx Wa x11 := by
  funext i
  obtain ⟨r, q, rfl⟩ : ∃ (r : Fin 50000) (q : Fin 128), i = ix2 r q := ⟨i 0, i 1, eq_ix2 i⟩
  have el : ∀ k : Fin 256, lidx_main_v87 (ix2 r q) k = ix2 r k := fun k =>
    funext fun a => Fin.ext (by match a with | ⟨0, _⟩ => rfl | ⟨1, _⟩ => rfl)
  have er : ∀ k : Fin 256, idx_main_v86 (ridx_main_v87 (ix2 r q) k) = ix2 q k := fun k =>
    funext fun a => Fin.ext (by match a with | ⟨0, _⟩ => rfl | ⟨1, _⟩ => rfl)
  have eb : idx_main_v88 (idx_main_v89 (ix2 r q)) = ix1 q :=
    funext fun a => Fin.ext (by match a with | ⟨0, _⟩ => rfl)
  rw [Cert.Gnn.upd_apply, val_main_v91_apply, val_main_call1_v0_apply, val_main_call1_cst_apply, val_main_v90_apply,
    val_main_v87_apply, val_main_v89_apply, val_main_v88_apply, eb]
  unfold val_main_v85
  generalize val_main_v84 (F := Ideal) x1 x3 x8 x9 = A
  simp only [val_main_v86_apply, el, er, Ideal.addf_def, Ideal.maximumf_def, Ideal.ofBits_def, Ideal.ofBits_zero_f32]
  exact layer_apply x0 A x10 x11 Wx Wa hx ha r q

end Cert.ReferenceIdeal.UpdValue

end
-- ==== Proof.RefValue.lean ====
/-
  The reference's result as one formula over the specification: the stack of the two node types' updated features,
  each the update of a node type's own features with the messages aggregated along the relation that points at it.

  The reference's aggregation (the source row of the edge list, negative node numbers wrapped, the gather of the
  messages, the scatter-add into a zero array at the destination row) is carried as ONE function `agg` of the messages
  and the edge list; the kernel program runs the same host operations, and nothing here looks inside them.
-/
import proofs.«179530_j790273982767_1_alg».proof.Proof.RefRead
import proofs.«179530_j790273982767_1_alg».proof.Proof.MsgRef
import proofs.«179530_j790273982767_1_alg».proof.Proof.UpdRef

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx

variable {F : FTy → Type} [FloatOps F]

/-- Aggregation along a relation: the messages `M` of the sources gathered per edge of `E` and added into the edges'
    destinations. -/
def agg (M : (⟨S50000x128, .f32⟩ : BufTy).Contents (Elt F)) (E : (⟨S2x800000, .i32⟩ : BufTy).Contents (Elt F)) :
    (⟨S50000x128, .f32⟩ : BufTy).Contents (Elt F) :=
  Host.scatterAdd scatter_S50000x128_S800000x1_S800000x128_1_0_0_1 (val_main_v36 (F := F)) (val_main_v37 (F := F) E)
    (Host.gather gather_S50000x128_S800000x1_S800000x128_1_0_n_n_0_1_1128 M (val_main_v34 (F := F) E))

/-- The two node types' results stacked along a new leading axis. -/
def stack (a b : (⟨S50000x128, .f32⟩ : BufTy).Contents (Elt F)) : (⟨S2x50000x128, .f32⟩ : BufTy).Contents (Elt F) :=
  concatenate S2x50000x128 0
    [⟨S1x50000x128, broadcastInDim S1x50000x128 ![1, 2] bcast_S50000x128_S1x50000x128_1_2 a⟩,
     ⟨S1x50000x128, broadcastInDim S1x50000x128 ![1, 2] bcast_S50000x128_S1x50000x128_1_2 b⟩]
    concatenates_S1x50000x128_S1x50000x128_S2x50000x128_d0

/-- The first relation's aggregated messages are `agg` of its message stage and its edge list. -/
theorem agg_ab (x0 : (⟨S50000x128, .f32⟩ : BufTy).Contents (Elt F)) (x2 : (⟨S2x800000, .i32⟩ : BufTy).Contents (Elt F))
    (x4 : (⟨S512x128, .f32⟩ : BufTy).Contents (Elt F)) (x5 : (⟨S512, .f32⟩ : BufTy).Contents (Elt F)) :
    val_main_v38 (F := F) x0 x2 x4 x5 = agg (val_main_v24 (F := F) x0 x4 x5) x2 := rfl

/-- The second relation's likewise. -/
theorem agg_ba (x1 : (⟨S50000x128, .f32⟩ : BufTy).Contents (Elt F)) (x3 : (⟨S2x800000, .i32⟩ : BufTy).Contents (Elt F))
    (x8 : (⟨S512x128, .f32⟩ : BufTy).Contents (Elt F)) (x9 : (⟨S512, .f32⟩ : BufTy).Contents (Elt F)) :
    val_main_v84 (F := F) x1 x3 x8 x9 = agg (val_main_v70 (F := F) x1 x8 x9) x3 := rfl

/-- THE REFERENCE'S RESULT: with `WxA`, `WaA` the column halves of the first node type's layer weights `x10` and
    `WxB`, `WaB` those of the second's `x6`. -/
theorem result_eq (x0 x1 : (⟨S50000x128, .f32⟩ : BufTy).Contents (Elt Ideal)) (x2 x3 : (⟨S2x800000, .i32⟩ : BufTy).Contents (Elt Ideal))
    (x4 : (⟨S512x128, .f32⟩ : BufTy).Contents (Elt Ideal)) (x5 : (⟨S512, .f32⟩ : BufTy).Contents (Elt Ideal))
    (x6 : (⟨S128x256, .f32⟩ : BufTy).Contents (Elt Ideal)) (x7 : (⟨S128, .f32⟩ : BufTy).Contents (Elt Ideal))
    (x8 : (⟨S512x128, .f32⟩ : BufTy).Contents (Elt Ideal)) (x9 : (⟨S512, .f32⟩ : BufTy).Contents (Elt Ideal))
    (x10 : (⟨S128x256, .f32⟩ : BufTy).Contents (Elt Ideal)) (x11 : (⟨S128, .f32⟩ : BufTy).Contents (Elt Ideal))
    (WxA WaA WxB WaB : Cert.Gnn.HalfW.Idx → EReal)
    (hxA : ∀ j k : Fin 128, WxA (ix2 j k) = x10 (ix2 j (⟨k.val, by omega⟩ : Fin 256)))
    (haA : ∀ j k : Fin 128, WaA (ix2 j k) = x10 (ix2 j (⟨128 + k.val, by omega⟩ : Fin 256)))
    (hxB : ∀ j k : Fin 128, WxB (ix2 j k) = x6 (ix2 j (⟨k.val, by omega⟩ : Fin 256)))
    (haB : ∀ j k : Fin 128, WaB (ix2 j k) = x6 (ix2 j (⟨128 + k.val, by omega⟩ : Fin 256))) :
    val_main_v94 (F := Ideal) x0 x1 x2 x3 x4 x5 x6 x7 x8 x9 x10 x11
      = stack (Cert.Gnn.upd x0 (agg (Cert.Gnn.msg x1 x8 x9) x3) WxA WaA x11)
          (Cert.Gnn.upd x1 (agg (Cert.Gnn.msg x0 x4 x5) x2) WxB WaB x7) := by
  unfold val_main_v94 val_main_v92 val_main_v93
  rw [Cert.ReferenceIdeal.UpdValue.upd_ref_a x0 x1 x3 x8 x9 x10 x11 WxA WaA hxA haA,
    Cert.ReferenceIdeal.UpdValue.upd_ref_b x0 x1 x2 x4 x5 x6 x7 WxB WaB hxB haB,
    agg_ba, agg_ab, Cert.ReferenceIdeal.MsgValue.msg_ref_ba, Cert.ReferenceIdeal.MsgValue.msg_ref_ab]
  rfl

end Cert.ReferenceIdeal.RefValue

end
-- ==== Proof.lean ====
/-
  Heterogeneous message passing on a bipartite graph, two relations, one step: the kernel program against the jnp
  reference, over the extended reals.

  Per relation both programs compute, for every source node, the message of an LSTM step from the zero state on the
  node's features (four gate pre-activations per channel from one product with the gate weights and a bias; the message
  is σ(output) · tanh(σ(input) · tanh(cell))); gather the messages along the edge list and add them into the edges'
  destinations; and update each destination node by the ReLU of a linear layer over its own features joined with its
  aggregated messages. The result stacks the two node types' updated features.

  The kernel program runs the message step and the update step as four launches over blocks of 2000 nodes and leaves
  the gather and the scatter-add to the host; the reference is all host operations. They differ in three spellings,
  none of which changes a value over the extended reals: the kernel narrows the matrix products' operands to bf16 (the
  identity here) and accumulates into zero (the plain sum); it applies the logistic function where the reference writes
  1 / (1 + exp (-x)) (its definition here); and it multiplies the node's features and its aggregated messages by the
  two column halves of the layer's weights and adds, where the reference multiplies their concatenation by the whole
  matrix — a sum over 256 terms split after the first 128, which commutativity and associativity of the extended
  reals' addition allow without any finiteness. The gather and the scatter-add are the same host operations on both
  sides and stay one opaque function. So the precondition is never opened.

  The three frames: the two kernel programs' are the generated frame certificates; the reference's is its run (the generated statement,
  read stretch by stretch) with the result dropped. The ideal pass rewrote nothing, so the kernel program's idealization is its own text.
-/
import proofs.«179530_j790273982767_1_alg».proof.Defs
import proofs.«179530_j790273982767_1_alg».proof.Proof.Gen.Kernel
import proofs.«179530_j790273982767_1_alg».proof.Proof.Gen.Kernel.Skeleton
import proofs.«179530_j790273982767_1_alg».proof.Proof.Gen.Kernel.Launch
import proofs.«179530_j790273982767_1_alg».proof.Proof.Gen.Kernel.Points
import proofs.«179530_j790273982767_1_alg».proof.Proof.Gen.Kernel.Frame
import proofs.«179530_j790273982767_1_alg».proof.Proof.Gen.KernelIdeal
import proofs.«179530_j790273982767_1_alg».proof.Proof.Gen.KernelIdeal.Skeleton
import proofs.«179530_j790273982767_1_alg».proof.Proof.Gen.KernelIdeal.Launch
import proofs.«179530_j790273982767_1_alg».proof.Proof.Gen.KernelIdeal.Points
import proofs.«179530_j790273982767_1_alg».proof.Proof.Gen.KernelIdeal.Frame
import proofs.«179530_j790273982767_1_alg».proof.Proof.Gen.ReferenceIdeal
import proofs.«179530_j790273982767_1_alg».proof.Proof.Gen.Pre_finite_inputs
import proofs.«179530_j790273982767_1_alg».proof.Proof.RefRun
import proofs.«179530_j790273982767_1_alg».proof.Proof.RefRead
import proofs.«179530_j790273982767_1_alg».proof.Proof.KernelRun
import proofs.«179530_j790273982767_1_alg».proof.Proof.KernelValue
import proofs.«179530_j790273982767_1_alg».proof.Proof.RefValue
import Idealize.ShloMosaic.Adequacy
import Idealize.ShloMosaic.Init
import Idealize.ShloMosaic.Lib.Pipeline.Value

set_option maxRecDepth 16384

noncomputable section

namespace Cert.Proof

open Idealize.ShloMosaic Idealize.ShloMosaic.TcCoe Idealize.ShloMosaic.ValueIdx Idealize.SL.Sem

/-! ## The two programs' host operations are the same functions -/

/-- Both programs aggregate by the same gather and scatter-add. -/
theorem agg_same {F : FTy → Type} [FloatOps F] (M : (⟨Cert.KernelIdeal.S50000x128, .f32⟩ : BufTy).Contents (Elt F))
    (E : (⟨Cert.KernelIdeal.S2x800000, .i32⟩ : BufTy).Contents (Elt F)) :
    Cert.ReferenceIdeal.RefValue.agg (F := F) M E = Cert.KernelIdeal.Fold.agg (F := F) M E := rfl

/-- Both programs stack the two results the same way. -/
theorem stack_same {F : FTy → Type} [FloatOps F] (a b : (⟨Cert.KernelIdeal.S50000x128, .f32⟩ : BufTy).Contents (Elt F)) :
    Cert.ReferenceIdeal.RefValue.stack (F := F) a b = Cert.KernelIdeal.Fold.stack (F := F) a b := rfl

/-- Entry (j, k) of the first column half of an update layer's weights is entry (j, k) of the weights. -/
theorem left_half (W : (⟨Cert.KernelIdeal.S128x256, .f32⟩ : BufTy).Contents (Elt Ideal)) (j k : Fin 128) :
    Cert.KernelIdeal.Fold.leftHalf (F := Ideal) W (ix2 j k) = W (ix2 j (⟨k.val, by omega⟩ : Fin 256)) := by
  unfold Cert.KernelIdeal.Fold.leftHalf
  refine extractStridedSlice_apply _ W _ (ix2 j k) (ix2 j (⟨k.val, by omega⟩ : Fin 256)) fun a => ?_
  match a with
  | ⟨0, _⟩ => show j.val = 0 + j.val; omega
  | ⟨1, _⟩ => show k.val = 0 + k.val; omega

/-- Entry (j, k) of the second column half is entry (j, 128 + k) of the weights. -/
theorem right_half (W : (⟨Cert.KernelIdeal.S128x256, .f32⟩ : BufTy).Contents (Elt Ideal)) (j k : Fin 128) :
    Cert.KernelIdeal.Fold.rightHalf (F := Ideal) W (ix2 j k) = W (ix2 j (⟨128 + k.val, by omega⟩ : Fin 256)) := by
  unfold Cert.KernelIdeal.Fold.rightHalf
  refine extractStridedSlice_apply _ W _ (ix2 j k) (ix2 j (⟨128 + k.val, by omega⟩ : Fin 256)) fun a => ?_
  match a with
  | ⟨0, _⟩ => show j.val = 0 + j.val; omega
  | ⟨1, _⟩ => show 128 + k.val = 128 + k.val; rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the result buffer at one and the same array: the
    kernel program's at the stack of its two update launches' outputs read back to the launch memory, the reference's
    at its composed term; both are the specification's formula of the twelve arguments. -/
theorem algebraic : Cert.algebraic_KernelIdeal_ReferenceIdeal := by
  intro m ρ m' ρ' _ hagree
  refine ⟨fun c => Cert.KernelIdeal.Gen.W7 m ρ c (Proc.devRef .tc Cert.KernelIdeal.main_v38),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  show _ = Cert.KernelIdeal.Gen.W7 m ρ c (Proc.devRef .tc Cert.KernelIdeal.main_v38)
  rw [Cert.ReferenceIdeal.ReadP.val_main_v94_eq, h0, h1, h2, h3, h4, h5, h6, h7, h8, h9, h10, h11,
    Cert.KernelIdeal.KernelValue.result m ρ c]
  rw [Cert.ReferenceIdeal.RefValue.result_eq _ _ _ _ _ _ _ _ _ _ _ _
    (Cert.KernelIdeal.Fold.leftHalf (F := Ideal) (m ((c.tc : Thread Cert.KernelIdeal.nD Cert.KernelIdeal.τ).loc Cert.KernelIdeal.main_arg10)))
    (Cert.KernelIdeal.Fold.rightHalf (F := Ideal) (m ((c.tc : Thread Cert.KernelIdeal.nD Cert.KernelIdeal.τ).loc Cert.KernelIdeal.main_arg10)))
    (Cert.KernelIdeal.Fold.leftHalf (F := Ideal) (m ((c.tc : Thread Cert.KernelIdeal.nD Cert.KernelIdeal.τ).loc Cert.KernelIdeal.main_arg6)))
    (Cert.KernelIdeal.Fold.rightHalf (F := Ideal) (m ((c.tc : Thread Cert.KernelIdeal.nD Cert.KernelIdeal.τ).loc Cert.KernelIdeal.main_arg6)))
    (fun j k => left_half _ j k) (fun j k => right_half _ j k) (fun j k => left_half _ j k) (fun j k => right_half _ j k),
    agg_same, agg_same, stack_same]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
